-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg6 : FVec F S32 .f32) (main_arg7 : FVec F S32x32 .f32) (main_arg8 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x32 .f32) (main_arg4 : FVec F S32 .f32) (main_arg5 : FVec F S32x32 .f32) (main_arg6 : FVec F S32 .f32) (main_arg7 : FVec F S32x32 .f32) (main_arg8 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S100000x32 : Shape := ⟨2, ![100000, 32]⟩
abbrev S4000x128 : Shape := ⟨2, ![4000, 128]⟩
abbrev S4000x32 : Shape := ⟨2, ![4000, 32]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x1 : Shape := ⟨2, ![100000, 1]⟩
abbrev S64x32 : Shape := ⟨2, ![64, 32]⟩
abbrev S4000x1 : Shape := ⟨2, ![4000, 1]⟩
abbrev S64x1 : Shape := ⟨2, ![64, 1]⟩
abbrev S1x64 : Shape := ⟨2, ![1, 64]⟩
abbrev S4000x64 : Shape := ⟨2, ![4000, 64]⟩

abbrev nBuf : Space → Nat
  | .hbm => 128
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000x32, .f32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x32, .f32⟩
  | .hbm, ⟨59, _⟩ => ⟨S1700000x1, .f32⟩
  | .hbm, ⟨60, _⟩ => ⟨S1700000x32, .f32⟩
  | .hbm, ⟨61, _⟩ => ⟨S1700000x32, .f32⟩
  | .hbm, ⟨62, _⟩ => ⟨S_, .f32⟩
  | .hbm, ⟨63, _⟩ => ⟨S100000x32, .f32⟩
  | .hbm, ⟨64, _⟩ => ⟨S1700000x1, .i32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x32, .f32⟩
  | .hbm, ⟨69, _⟩ => ⟨S100000x32, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x32, .f32⟩
  | .hbm, ⟨115, _⟩ => ⟨S1700000x1, .f32⟩
  | .hbm, ⟨116, _⟩ => ⟨S1700000x32, .f32⟩
  | .hbm, ⟨117, _⟩ => ⟨S1700000x32, .f32⟩
  | .hbm, ⟨118, _⟩ => ⟨S_, .f32⟩
  | .hbm, ⟨119, _⟩ => ⟨S100000x32, .f32⟩
  | .hbm, ⟨120, _⟩ => ⟨S1700000x1, .i32⟩
  | .hbm, ⟨121, _⟩ => ⟨S100000x32, .f32⟩
  | .hbm, ⟨122, _⟩ => ⟨S1x32, .f32⟩
  | .hbm, ⟨123, _⟩ => ⟨S100000x32, .f32⟩
  | .hbm, ⟨124, _⟩ => ⟨S100000x32, .f32⟩
  | .hbm, ⟨125, _⟩ => ⟨S100000x1, .i32⟩
  | .hbm, ⟨126, _⟩ => ⟨S1x32, .f32⟩
  | .hbm, ⟨127, _⟩ => ⟨S64x32, .f32⟩
  | .local _ .vmem, ⟨0, _⟩ => ⟨S4000x128, .f32⟩
  | .local _ .vmem, ⟨1, _⟩ => ⟨S4000x128, .f32⟩
  | .local _ .vmem, ⟨2, _⟩ => ⟨S128x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x32, .f32⟩
  | .local _ .vmem, ⟨7, _⟩ => ⟨S32x32, .f32⟩
  | .local _ .vmem, ⟨8, _⟩ => ⟨S4000x32, .f32⟩
  | .local _ .vmem, ⟨9, _⟩ => ⟨S4000x32, .f32⟩
  | .local _ .vmem, ⟨10, _⟩ => ⟨S4000x32, .f32⟩
  | .local _ .vmem, ⟨11, _⟩ => ⟨S4000x32, .f32⟩
  | .local _ .vmem, ⟨12, _⟩ => ⟨S4000x1, .i32⟩
  | .local _ .vmem, ⟨13, _⟩ => ⟨S4000x1, .i32⟩
  | .local _ .vmem, ⟨14, _⟩ => ⟨S32x32, .f32⟩
  | .local _ .vmem, ⟨15, _⟩ => ⟨S1x32, .f32⟩
  | .local _ .vmem, ⟨16, _⟩ => ⟨S64x32, .f32⟩
  | .local _ .vmem, ⟨17, _⟩ => ⟨S64x32, .f32⟩
  | .local _ .vmem, ⟨18, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_17 : Ref sig .tc := ⟨.hbm, 106, rfl⟩
abbrev main_v74 : Ref sig .tc := ⟨.hbm, 107, rfl⟩
abbrev main_v75 : Ref sig .tc := ⟨.hbm, 108, rfl⟩
abbrev main_c_18 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_19 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_scratch0 : Ref sig .tc := ⟨.vmem, 17, rfl⟩
abbrev cc2_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_14 : BitVec 32 := 0#32
  let v30 : BitVec 1 := Scalar.cmpi .ne v29 c0_i32_14
  v30

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S4000x32_S4000x32_0_0 : ∀ a, (![0, 0] : Fin 2 → Nat) a + S4000x32.size a ≤ S4000x32.size a
  h_S4000x32 : 0 < S4000x32.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S4000x32_S4000x32 : S4000x32.ShapeCasts S4000x32
  inb_S32x32_S32x32_0_0 : ∀ a, (![0, 0] : Fin 2 → Nat) a + S32x32.size a ≤ S32x32.size a
  h_S32x32 : 0 < S32x32.numel
  shapeCasts_S100000_S100000x1 : S100000.ShapeCasts S100000x1
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S1x64_d1_w32 : S1x64.Iotas .tc 32 [1]
  broadcasts_S4000x1_S4000x64 : S4000x1.Broadcasts S4000x64
  broadcasts_S1x64_S4000x64 : S1x64.Broadcasts S4000x64
  natLt_1_32 : 1 < 32
  broadcasts_S64x1_S64x32 : S64x1.Broadcasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  dot_S4000x128_S128x32_S4000x32_1_0_0_1_n_n_wf : DotDims.WF S4000x128 S128x32 S4000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S4000x32_S32x32_S4000x32_1_0_0_1_n_n_wf : DotDims.WF S4000x32 S32x32 S4000x32 [1] [0] [0] [1] [] []
  dot_S4000x64_S4000x32_S64x32_0_0_1_1_n_n_wf : DotDims.WF S4000x64 S4000x32 S64x32 [0] [0] [1] [1] [] []
  dot_S4000x64_S4000x1_S64x1_0_0_1_1_n_n_wf : DotDims.WF S4000x64 S4000x1 S64x1 [0] [0] [1] [1] [] []
  dot_S64x32_S32x32_S64x32_1_0_0_1_n_n_wf : DotDims.WF S64x32 S32x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S100000x32.size a
  hwx1_2 : ∀ i : grid1.Coords, EltTy.bits .f32 = 32 ∨ (Rect.block (s := S100000x32) S4000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .i32 = 32 ∨ (Rect.block (s := S100000x1) S4000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .f32 = 32 ∨ (Rect.block (s := S64x32) S64x32.size (cc2_transform_4 i) (hinb2_4 i)).WholeWords (EltTy.packing .f32)

variable [Facts₀]

def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x64_S4000x32_S64x32_0_0_1_1_n_n : DotDims S4000x64 S4000x32 S64x32 where
  lhsContracting := [0]
  rhsContracting := [0]
  lhsNonContracting := [1]
  rhsNonContracting := [1]
  lhsBatch := []
  rhsBatch := []
  wf := dot_S4000x64_S4000x32_S64x32_0_0_1_1_n_n_wf
def dot_S4000x64_S4000x1_S64x1_0_0_1_1_n_n : DotDims S4000x64 S4000x1 S64x1 where
  lhsContracting := [0]
  rhsContracting := [0]
  lhsNonContracting := [1]
  rhsNonContracting := [1]
  lhsBatch := []
  rhsBatch := []
  wf := dot_S4000x64_S4000x1_S64x1_0_0_1_1_n_n_wf
def dot_S64x32_S32x32_S64x32_1_0_0_1_n_n : DotDims S64x32 S32x32 S64x32 where
  lhsContracting := [1]
  rhsContracting := [0]
  lhsNonContracting := [0]
  rhsNonContracting := [1]
  lhsBatch := []
  rhsBatch := []
  wf := dot_S64x32_S32x32_S64x32_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v89) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v90) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v91) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v92) S64x32.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S100000x32 : Shape := ⟨2, ![100000, 32]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S64 : Shape := ⟨1, ![64]⟩
abbrev S100000x1 : Shape := ⟨2, ![100000, 1]⟩
abbrev S64x32 : Shape := ⟨2, ![64, 32]⟩
abbrev S64x1 : Shape := ⟨2, ![64, 1]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S1x1600000, .i32⟩
  | 10 => ⟨S1600000, .i32⟩
  | 11 => ⟨S1x1600000, .i32⟩
  | 12 => ⟨S1600000, .i32⟩
  | 13 => ⟨S100000x32, .f32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x32, .f32⟩
  | 59 => ⟨S1700000x1, .f32⟩
  | 60 => ⟨S1700000x32, .f32⟩
  | 61 => ⟨S1700000x32, .f32⟩
  | 62 => ⟨S_, .f32⟩
  | 63 => ⟨S100000x32, .f32⟩
  | 64 => ⟨S1700000x1, .i32⟩
  | 65 => ⟨S100000x32, .f32⟩
  | 66 => ⟨S1x32, .f32⟩
  | 67 => ⟨S100000x32, .f32⟩
  | 68 => ⟨S100000x32, .f32⟩
  | 69 => ⟨S_, .f32⟩
  | 70 => ⟨S100000x32, .f32⟩
  | 71 => ⟨S100000x32, .f32⟩
  | 72 => ⟨S100000x32, .f32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x32, .f32⟩
  | 118 => ⟨S1700000x1, .f32⟩
  | 119 => ⟨S1700000x32, .f32⟩
  | 120 => ⟨S1700000x32, .f32⟩
  | 121 => ⟨S_, .f32⟩
  | 122 => ⟨S100000x32, .f32⟩
  | 123 => ⟨S1700000x1, .i32⟩
  | 124 => ⟨S100000x32, .f32⟩
  | 125 => ⟨S1x32, .f32⟩
  | 126 => ⟨S100000x32, .f32⟩
  | 127 => ⟨S100000x32, .f32⟩
  | _ => ⟨S100000x128, .f32⟩

abbrev hbmTy0_1 (i : Nat) : BufTy := match i % 128 with
  | 0 => ⟨S_, .f32⟩
  | 1 => ⟨S100000, .f32⟩
  | 2 => ⟨S_, .f32⟩
  | 3 => ⟨S64, .f32⟩
  | 4 => ⟨S100000x1, .i32⟩
  | 5 => ⟨S64, .f32⟩
  | 6 => ⟨S_, .f32⟩
  | 7 => ⟨S64x32, .f32⟩
  | 8 => ⟨S100000x1, .i32⟩
  | 9 => ⟨S64x32, .f32⟩
  | 10 => ⟨S_, .f32⟩
  | 11 => ⟨S64, .f32⟩
  | 12 => ⟨S64, .f32⟩
  | 13 => ⟨S64x1, .f32⟩
  | 14 => ⟨S64x32, .f32⟩
  | 15 => ⟨S64x32, .f32⟩
  | 16 => ⟨S64x32, .f32⟩
  | 17 => ⟨S1x32, .f32⟩
  | 18 => ⟨S64x32, .f32⟩
  | 19 => ⟨S64x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_20 : Ref sig .tc := ⟨.hbm, 128, rfl⟩
abbrev main_v91 : Ref sig .tc := ⟨.hbm, 129, rfl⟩
abbrev main_cst_21 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_23 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64 : S_.BroadcastsInDim S64 (![] : Fin 0 → Fin S64.rank)
  bcast_S100000_S100000x1_0 : S100000.BroadcastsInDim S100000x1 (![0] : Fin 1 → Fin S100000x1.rank)
  bcast_S_S64x32 : S_.BroadcastsInDim S64x32 (![] : Fin 0 → Fin S64x32.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S1x32_S64x32_0_1 : S1x32.BroadcastsInDim S64x32 (![0, 1] : Fin 2 → Fin S64x32.rank)
  dot_S100000x128_S128x32_S100000x32_1_0_0_1_n_n_wf : DotDims.WF S100000x128 S128x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x32_S100000x32_1_0_0_1_n_n_wf : DotDims.WF S100000x32 S32x32 S100000x32 [1] [0] [0] [1] [] []
  scatter_S64_S100000x1_S100000_n_0_0_1_wf : ScatterDims.WF S64 S100000x1 S100000 [] [0] [0] 1
  scatter_S64x32_S100000x1_S100000x32_1_0_0_1_wf : ScatterDims.WF S64x32 S100000x1 S100000x32 [1] [0] [0] 1
  dot_S64x32_S32x32_S64x32_1_0_0_1_n_n_wf : DotDims.WF S64x32 S32x32 S64x32 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def dot_S64x32_S32x32_S64x32_1_0_0_1_n_n : DotDims S64x32 S32x32 S64x32 where
  lhsContracting := [1]
  rhsContracting := [0]
  lhsNonContracting := [0]
  rhsNonContracting := [1]
  lhsBatch := []
  rhsBatch := []
  wf := dot_S64x32_S32x32_S64x32_1_0_0_1_n_n_wf

class Facts : Prop extends Facts₀ where

variable [Facts]
-- ==== Proof.K.Reg0.lean ====
/-
  Region 0 of the program: a row-tiled linear projection. At a grid point the body reads a block of 4000 rows of
  its left operand and the whole weight matrix and stores the body's product of the two (the payload of its one store)
  as the same 4000 rows of the result. Stated at a parameter `V`, the contents of the buffers when the region is entered:
  what each window's block is, what the body leaves in the result's staging buffer, the body's triple and the
  pipeline's proof data with its body obligation.
-/
import proofs.«409070_j24455543783861_2_alg».proof.Proof.Gen.Kernel.Launch
import proofs.«409070_j24455543783861_2_alg».proof.Proof.Gen.Kernel.Skeleton
import proofs.«409070_j24455543783861_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left operand is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rIn0 : Rect S4000x128 := Rect.unit (s := S4000x128) ![0, 0] S4000x128.size inb_S4000x128_S4000x128_0_0
abbrev rW0 : Rect S128x32 := Rect.unit (s := S128x32) ![0, 0] S128x32.size inb_S128x32_S128x32_0_0
abbrev rOut0 : Rect S4000x32 := Rect.unit (s := S4000x32) ![0, 0] S4000x32.size inb_S4000x32_S4000x32_0_0

/-- What the body leaves in the result's staging buffer: its one store, of the product of the two loads. -/
def out0_2 (x0 : Vec F S4000x128 .f32) (x1 : Vec F S128x32 .f32) : Vec F S4000x32 .f32 :=
  View.canon [⟨rOut0, k0_pay1 (View.ld x0 rIn0) (View.ld x1 rW0)⟩]

theorem cover0_2 (p0 : Vec F S4000x32 .f32) (y : S4000x32.Idx) :
    ∃ pc ∈ ([⟨rOut0, p0⟩] : List (View.Piece (Elt F) S4000x32 .f32)), y ∈ pc.1.set :=
  View.cover_of_tiled [⟨rOut0, p0⟩] S4000x32.size (by rfl) y

set_option maxHeartbeats 1000000 in
/-- The body on whole staging memrefs: the operands' buffers are read and kept, the result's buffer ends at the product. -/
theorem sound_kernel0 (c : Dev nD) (E : Set ℕ) (i : grid0.Coords) (arg1 : Memref sig .tc .vmem S4000x128 .f32) (harg1 : arg1.IsWhole) (arg2 : Memref sig .tc .vmem S128x32 .f32) (harg2 : arg2.IsWhole)
    (arg3 : Memref sig .tc .vmem S4000x32 .f32) (harg3 : arg3.IsWhole)
    (x0 : Vec F S4000x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each operand's buffer
    at its block and the result's at the product of the two blocks; the scoped rest and the generator register pass through. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so the triple applies; the invariant passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/-
  Region 1 of the program: a row-tiled linear projection. At a grid point the body reads a block of 4000 rows of
  its left operand and the whole weight matrix and stores the body's product of the two (the payload of its one store)
  as the same 4000 rows of the result. Stated at a parameter `V`, the contents of the buffers when the region is entered:
  what each window's block is, what the body leaves in the result's staging buffer, the body's triple and the
  pipeline's proof data with its body obligation.
-/
import proofs.«409070_j24455543783861_2_alg».proof.Proof.Gen.Kernel.Launch
import proofs.«409070_j24455543783861_2_alg».proof.Proof.Gen.Kernel.Skeleton
import proofs.«409070_j24455543783861_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the left operand is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix, fetched once, is in its staging buffer at every point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rIn1 : Rect S4000x32 := Rect.unit (s := S4000x32) ![0, 0] S4000x32.size inb_S4000x32_S4000x32_0_0
abbrev rW1 : Rect S32x32 := Rect.unit (s := S32x32) ![0, 0] S32x32.size inb_S32x32_S32x32_0_0
abbrev rOut1 : Rect S4000x32 := Rect.unit (s := S4000x32) ![0, 0] S4000x32.size inb_S4000x32_S4000x32_0_0

/-- What the body leaves in the result's staging buffer: its one store, of the product of the two loads. -/
def out1_2 (x0 : Vec F S4000x32 .f32) (x1 : Vec F S32x32 .f32) : Vec F S4000x32 .f32 :=
  View.canon [⟨rOut1, k1_pay1 (View.ld x0 rIn1) (View.ld x1 rW1)⟩]

theorem cover1_2 (p0 : Vec F S4000x32 .f32) (y : S4000x32.Idx) :
    ∃ pc ∈ ([⟨rOut1, p0⟩] : List (View.Piece (Elt F) S4000x32 .f32)), y ∈ pc.1.set :=
  View.cover_of_tiled [⟨rOut1, p0⟩] S4000x32.size (by rfl) y

set_option maxHeartbeats 1000000 in
/-- The body on whole staging memrefs: the operands' buffers are read and kept, the result's buffer ends at the product. -/
theorem sound_kernel1 (c : Dev nD) (E : Set ℕ) (i : grid1.Coords) (arg1 : Memref sig .tc .vmem S4000x32 .f32) (harg1 : arg1.IsWhole) (arg2 : Memref sig .tc .vmem S32x32 .f32) (harg2 : arg2.IsWhole)
    (arg3 : Memref sig .tc .vmem S4000x32 .f32) (harg3 : arg3.IsWhole)
    (x0 : Vec F S4000x32 .f32) (x1 : Vec F S32x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body each operand's buffer
    at its block and the result's at the product of the two blocks; the scoped rest and the generator register pass through. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' buffers hold their blocks, so the triple applies; the invariant passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/-
  Region 2 of the program: the pooling kernel. Over a grid of 25 points the body adds, into two accumulators it keeps
  between the points (zeroed at the first), the one-hot segment sums of a block of 4000 rows and the segment counts; at
  the last point it stores the normalised, projected sums as the result, whose staging buffer it leaves untouched
  everywhere else. Stated at a parameter `V`, the contents of the buffers when the region is entered: what each
  window's block is, the body's triple in each of its three control cases, what the result's buffer and the two
  accumulators hold after each point, the pipeline's proof data with its body obligation, and the recurrences the
  accumulators satisfy.
-/
import proofs.«409070_j24455543783861_2_alg».proof.Proof.Gen.Kernel.Launch
import proofs.«409070_j24455543783861_2_alg».proof.Proof.Gen.Kernel.Skeleton
import proofs.«409070_j24455543783861_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the features is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row block of the segment ids is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The weight matrix, fetched once, is in its staging buffer at every point: its block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The bias row, fetched once, is in its staging buffer at every point: its block index never moves. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions on the grid coordinate -/

/-- The body's first conditional, from the grid coordinate: the point is the first. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 25 = 0 :=
  (by decide +kernel : ∀ t : Fin grid2.N, cond2_0 (grid2.coords t) ↔ t.val % 25 = 0)

/-- The body's second conditional: the point is the last. -/
abbrev cond2_1 (i : grid2.Coords) : Prop := k2_cond2 i = 1#1
/-- It holds at point 24 only. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last point the result's window is idle: the body stores nothing into it there, -/
theorem idleAt2_4 : ∀ t : Fin cfg2.N, ¬cond2_1 (grid2.coords t) → cfg2.idle 4 (grid2.coords t) = true := by decide +kernel
/-- and the pipeline does not write its block back. -/
theorem noFlush2_4 : ∀ t : Fin cfg2.N, ¬cond2_1 (grid2.coords t) → (cfg2.win 4).flush t = false := by decide +kernel
/-- At the last point it is live. -/
theorem liveAt2_4 : ∀ t : Fin cfg2.N, cond2_1 (grid2.coords t) → cfg2.idle 4 (grid2.coords t) = false := by decide +kernel

/-! ## The memrefs the body is called with -/

abbrev ms2_0 (t : Fin cfg2.N) : Memref sig .tc .vmem S4000x32 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S32x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x32 .f32 := win2_4.stage (cfg2.slots t 4)
abbrev hs2_4 (t : Fin cfg2.N) : (ms2_4 t).IsWhole := hstage2_4 ((cfg2.slots t 4).cast nbuf2_4)
/-- The two accumulators: whole scoped buffers of the kernel's own, passed beside the windows. -/
abbrev scM2_0 : Memref sig .tc .vmem S64x32 .f32 := Memref.whole cc2_scratch0
abbrev scM2_1 : Memref sig .tc .vmem S64x1 .f32 := Memref.whole cc2_scratch1

/-- The staging buffers of the other two regions, each whole at some contents: they ride along untouched. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the region: the other regions' staging buffers, the two accumulators at some contents,
    and the generator register at some state. -/
theorem PhiA2_eq (c : Dev nD) :
    (Pipeline.ΦA spec2 c : sProp 𝕄)
      = iprop(iprop(others2 (F := F) c ∗ (∃ d, owns (c : Thread nD τ) scM2_0 fullShare d) ∗ (∃ d, owns (c : Thread nD τ) scM2_1 fullShare d)) ∗ (∃ r, prngReg c r)) := by
  unfold Pipeline.ΦA; rw [scopedRest2_eq]; unfold others2; simp only [scM2_0, scM2_1, owns_whole]
  refine congrArg (fun X => iprop(X ∗ (∃ r, prngReg c r))) ?_
  refine BI.Entails.antisymm (show _ ⊢ (_ : sProp 𝕄) from ?_) (show _ ⊢ (_ : sProp 𝕄) from ?_)
  · iintro ⟨A0, A1, A2, A3, A4, A5, A6, A7, A8, A9, S0, S1⟩
    isplitl [A0 A1 A2 A3 A4 A5 A6 A7 A8 A9]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    isplitl [S0]; · iexact S0
    iexact S1
  · iintro ⟨⟨A0, A1, A2, A3, A4, A5, A6, A7, A8, A9⟩, S0, S1⟩
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    iexact S1

/-! ## The body's triple in each control case -/

theorem hz2 : (![0, 0] : Fin 2 → Nat) = fun _ => 0 := funext fun a => by fin_cases a <;> rfl

/-- A list of writes whose last is a store through the whole shape reads back as that store's payload, whatever came
    before it. -/
theorem read_writes_last_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨⟨Rect.unit off S.size inb, w⟩, List.mem_cons_self .., View.mem_set_unit_zero h inb y⟩),
    View.canon_cons_unit_zero h]

set_option maxHeartbeats 4000000 in
/-- The body at the first point, on whole memrefs: the four operands' buffers are read and kept, the result's buffer is
    handed back untouched, and the accumulators, found at anything, are zeroed and then end one step from zero. -/
theorem sound_kernel2_A (c : Dev nD) (E : Set ℕ) (i : grid2.Coords) (hc0 : cond2_0 i) (hc1 : ¬cond2_1 i)
    (arg1 : Memref sig .tc .vmem S4000x32 .f32) (harg1 : arg1.IsWhole) (arg2 : Memref sig .tc .vmem S4000x1 .i32) (harg2 : arg2.IsWhole) (arg3 : Memref sig .tc .vmem S32x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S64x1 .f32) (harg7 : arg7.IsWhole)
    (x0 : Vec F S4000x32 .f32) (x1 : Vec F S4000x1 .i32) (x2 : Vec F S32x32 .f32) (x3 : Vec F S1x32 .f32) (xi : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi
            ∗ owns (c : Thread nD τ) arg6 fullShare (k2_pay4 x1 x0 k2_pay1) ∗ owns (c : Thread nD τ) arg7 fullShare (k2_pay5 x1 k2_pay2)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_last_whole2 (S := S64x32) _ _ hz2]
    try simp only [View.readCov_unit_zero (S := S64x32) _ hz2, View.readCov_unit_zero (S := S64x1) _ hz2, View.readAt_eq_ld,
      View.ld_unit_zero (S := S4000x32) hz2, View.ld_unit_zero (S := S4000x1) hz2, View.ld_unit_zero (S := S32x32) hz2,
      View.ld_unit_zero (S := S1x32) hz2, View.ld_unit_zero (S := S64x32) hz2, View.ld_unit_zero (S := S64x1) hz2]
  iexists _; isplitr
  swap; · iexact H6
  ipureintro
  sl_unfold_run_names
  rw [read_writes_last_whole2 (S := S64x1) _ _ hz2]
  try simp only [View.readCov_unit_zero (S := S64x32) _ hz2, View.readCov_unit_zero (S := S64x1) _ hz2, View.readAt_eq_ld,
    View.ld_unit_zero (S := S4000x32) hz2, View.ld_unit_zero (S := S4000x1) hz2, View.ld_unit_zero (S := S32x32) hz2,
    View.ld_unit_zero (S := S1x32) hz2, View.ld_unit_zero (S := S64x32) hz2, View.ld_unit_zero (S := S64x1) hz2]

set_option maxHeartbeats 4000000 in
/-- The body at a point that is neither first nor last: the operands' buffers are read and kept, the result's buffer is
    handed back untouched, and each accumulator ends one step on from what it held. -/
theorem sound_kernel2_B (c : Dev nD) (E : Set ℕ) (i : grid2.Coords) (hc0 : ¬cond2_0 i) (hc1 : ¬cond2_1 i)
    (arg1 : Memref sig .tc .vmem S4000x32 .f32) (harg1 : arg1.IsWhole) (arg2 : Memref sig .tc .vmem S4000x1 .i32) (harg2 : arg2.IsWhole) (arg3 : Memref sig .tc .vmem S32x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S64x1 .f32) (harg7 : arg7.IsWhole)
    (x0 : Vec F S4000x32 .f32) (x1 : Vec F S4000x1 .i32) (x2 : Vec F S32x32 .f32) (x3 : Vec F S1x32 .f32) (xi : Vec F S64x32 .f32) (xs0 : Vec F S64x32 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi
            ∗ owns (c : Thread nD τ) arg6 fullShare (k2_pay4 x1 x0 xs0) ∗ owns (c : Thread nD τ) arg7 fullShare (k2_pay5 x1 xs1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_last_whole2 (S := S64x32) _ _ hz2]
    try simp only [View.readCov_unit_zero (S := S64x32) _ hz2, View.readCov_unit_zero (S := S64x1) _ hz2, View.readAt_eq_ld,
      View.ld_unit_zero (S := S4000x32) hz2, View.ld_unit_zero (S := S4000x1) hz2, View.ld_unit_zero (S := S32x32) hz2,
      View.ld_unit_zero (S := S1x32) hz2, View.ld_unit_zero (S := S64x32) hz2, View.ld_unit_zero (S := S64x1) hz2]
  iexists _; isplitr
  swap; · iexact H6
  ipureintro
  sl_unfold_run_names
  rw [read_writes_last_whole2 (S := S64x1) _ _ hz2]
  try simp only [View.readCov_unit_zero (S := S64x32) _ hz2, View.readCov_unit_zero (S := S64x1) _ hz2, View.readAt_eq_ld,
    View.ld_unit_zero (S := S4000x32) hz2, View.ld_unit_zero (S := S4000x1) hz2, View.ld_unit_zero (S := S32x32) hz2,
    View.ld_unit_zero (S := S1x32) hz2, View.ld_unit_zero (S := S64x32) hz2, View.ld_unit_zero (S := S64x1) hz2]

set_option maxHeartbeats 4000000 in
/-- The body at the last point: as at a middle point, and the result's buffer, found at anything, ends at the
    normalised and projected accumulators. -/
theorem sound_kernel2_C (c : Dev nD) (E : Set ℕ) (i : grid2.Coords) (hc0 : ¬cond2_0 i) (hc1 : cond2_1 i)
    (arg1 : Memref sig .tc .vmem S4000x32 .f32) (harg1 : arg1.IsWhole) (arg2 : Memref sig .tc .vmem S4000x1 .i32) (harg2 : arg2.IsWhole) (arg3 : Memref sig .tc .vmem S32x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S64x1 .f32) (harg7 : arg7.IsWhole)
    (x0 : Vec F S4000x32 .f32) (x1 : Vec F S4000x1 .i32) (x2 : Vec F S32x32 .f32) (x3 : Vec F S1x32 .f32) (xs0 : Vec F S64x32 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k2_pay6 (k2_pay4 x1 x0 xs0) (k2_pay5 x1 xs1) x2 x3)
            ∗ owns (c : Thread nD τ) arg6 fullShare (k2_pay4 x1 x0 xs0) ∗ owns (c : Thread nD τ) arg7 fullShare (k2_pay5 x1 xs1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_last_whole2 (S := S64x32) _ _ hz2]
    try simp only [View.readCov_unit_zero (S := S64x32) _ hz2, View.readCov_unit_zero (S := S64x1) _ hz2, View.readAt_eq_ld,
      View.ld_unit_zero (S := S4000x32) hz2, View.ld_unit_zero (S := S4000x1) hz2, View.ld_unit_zero (S := S32x32) hz2,
      View.ld_unit_zero (S := S1x32) hz2, View.ld_unit_zero (S := S64x32) hz2, View.ld_unit_zero (S := S64x1) hz2]
  isplitl [H5]
  · iexists _; isplitr
    swap; · iexact H5
    ipureintro
    sl_unfold_run_names
    rw [read_writes_last_whole2 (S := S64x32) _ _ hz2]
    try simp only [View.readCov_unit_zero (S := S64x32) _ hz2, View.readCov_unit_zero (S := S64x1) _ hz2, View.readAt_eq_ld,
      View.ld_unit_zero (S := S4000x32) hz2, View.ld_unit_zero (S := S4000x1) hz2, View.ld_unit_zero (S := S32x32) hz2,
      View.ld_unit_zero (S := S1x32) hz2, View.ld_unit_zero (S := S64x32) hz2, View.ld_unit_zero (S := S64x1) hz2]
  iexists _; isplitr
  swap; · iexact H6
  ipureintro
  sl_unfold_run_names
  rw [read_writes_last_whole2 (S := S64x1) _ _ hz2]
  try simp only [View.readCov_unit_zero (S := S64x32) _ hz2, View.readCov_unit_zero (S := S64x1) _ hz2, View.readAt_eq_ld,
    View.ld_unit_zero (S := S4000x32) hz2, View.ld_unit_zero (S := S4000x1) hz2, View.ld_unit_zero (S := S32x32) hz2,
    View.ld_unit_zero (S := S1x32) hz2, View.ld_unit_zero (S := S64x32) hz2, View.ld_unit_zero (S := S64x1) hz2]

/-! ## What the result's buffer and the accumulators hold after each point -/

/-- One point's step from accumulators `s0`, `s1` over the point's blocks: the accumulators one step on, and beside
    them the normalised and projected accumulators, which is what the last point stores as the result. -/
def step2 (b0 : Vec F S4000x32 .f32) (b1 : Vec F S4000x1 .i32) (b2 : Vec F S32x32 .f32) (b3 : Vec F S1x32 .f32)
    (s0 : Vec F S64x32 .f32) (s1 : Vec F S64x1 .f32) : Vec F S64x32 .f32 × Vec F S64x32 .f32 × Vec F S64x1 .f32 :=
  (k2_pay6 (k2_pay4 b1 b0 s0) (k2_pay5 b1 s1) b2 b3, k2_pay4 b1 b0 s0, k2_pay5 b1 s1)

/-- THE ACCUMULATION. After the body at position `n`: what the result's staging buffer holds (at the last point; at
    the others, where the window is idle and nothing consults it, the same expression as a placeholder), and the two
    accumulators: from zero at the first point, from what the point before left afterwards. -/
def outsAt2 (c : Dev nD) : (n : ℕ) → n < cfg2.N → Vec F S64x32 .f32 × Vec F S64x32 .f32 × Vec F S64x1 .f32
  | 0, hn => step2 (iblk2 V c 0 ⟨0, hn⟩) (iblk2 V c 1 ⟨0, hn⟩) (iblk2 V c 2 ⟨0, hn⟩) (iblk2 V c 3 ⟨0, hn⟩) k2_pay1 k2_pay2
  | n + 1, hn => step2 (iblk2 V c 0 ⟨n + 1, hn⟩) (iblk2 V c 1 ⟨n + 1, hn⟩) (iblk2 V c 2 ⟨n + 1, hn⟩) (iblk2 V c 3 ⟨n + 1, hn⟩)
      (outsAt2 c n (Nat.lt_of_succ_lt hn)).2.1 (outsAt2 c n (Nat.lt_of_succ_lt hn)).2.2

/-- The first accumulator after the first point: one step from zero. -/
theorem acc2_0_first (c : Dev nD) (t : Fin cfg2.N) (hz : t.val = 0) :
    (outsAt2 V c t.val t.isLt).2.1 = k2_pay4 (iblk2 V c 1 t) (iblk2 V c 0 t) k2_pay1 := by
  obtain ⟨n, hn⟩ := t
  cases n with
  | zero => rfl
  | succ n => exact absurd hz (Nat.succ_ne_zero n)

/-- The second accumulator after the first point: one step from zero. -/
theorem acc2_1_first (c : Dev nD) (t : Fin cfg2.N) (hz : t.val = 0) :
    (outsAt2 V c t.val t.isLt).2.2 = k2_pay5 (iblk2 V c 1 t) k2_pay2 := by
  obtain ⟨n, hn⟩ := t
  cases n with
  | zero => rfl
  | succ n => exact absurd hz (Nat.succ_ne_zero n)

/-- The first accumulator after a later point: one step from what the point before left. -/
theorem acc2_0_later (c : Dev nD) (t : Fin cfg2.N) (hz : t.val ≠ 0) :
    (outsAt2 V c t.val t.isLt).2.1 = k2_pay4 (iblk2 V c 1 t) (iblk2 V c 0 t) (outsAt2 V c (t.val - 1) (Nat.lt_of_le_of_lt (Nat.sub_le _ _) t.isLt)).2.1 := by
  obtain ⟨n, hn⟩ := t
  cases n with
  | zero => exact absurd rfl hz
  | succ n => rfl

/-- The second accumulator after a later point: one step from what the point before left. -/
theorem acc2_1_later (c : Dev nD) (t : Fin cfg2.N) (hz : t.val ≠ 0) :
    (outsAt2 V c t.val t.isLt).2.2 = k2_pay5 (iblk2 V c 1 t) (outsAt2 V c (t.val - 1) (Nat.lt_of_le_of_lt (Nat.sub_le _ _) t.isLt)).2.2 := by
  obtain ⟨n, hn⟩ := t
  cases n with
  | zero => exact absurd rfl hz
  | succ n => rfl

/-- The first component at any point: the normalised and projected accumulators of that point. -/
theorem out2_eq (c : Dev nD) (t : Fin cfg2.N) :
    (outsAt2 V c t.val t.isLt).1 = k2_pay6 (outsAt2 V c t.val t.isLt).2.1 (outsAt2 V c t.val t.isLt).2.2 (iblk2 V c 2 t) (iblk2 V c 3 t) := by
  obtain ⟨n, hn⟩ := t
  cases n with
  | zero => rfl
  | succ n => rfl

/-- The region invariant before position `n`: before the first point what the launch hands over (both accumulators at
    anything); afterwards the other regions' buffers, each accumulator at what the point before left in it, and the
    generator register at some state. -/
def PhiS2 (c : Dev nD) : (n : ℕ) → n ≤ cfg2.N → sProp 𝕄
  | 0, _ => Pipeline.ΦA spec2 c
  | n + 1, hn => iprop(iprop(others2 (F := F) c ∗ owns (c : Thread nD τ) scM2_0 fullShare (outsAt2 V c n hn).2.1 ∗ owns (c : Thread nD τ) scM2_1 fullShare (outsAt2 V c n hn).2.2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2_0 fullShare (outsAt2 V c n hn).2.1 ∗ owns (c : Thread nD τ) scM2_1 fullShare (outsAt2 V c n hn).2.2) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2_0 fullShare (outsAt2 V c (n - 1) (by omega)).2.1 ∗ owns (c : Thread nD τ) scM2_1 fullShare (outsAt2 V c (n - 1) (by omega)).2.2) ∗ (∃ r, prngReg c r)) := by
  cases n with
  | zero => exact absurd rfl hz
  | succ n => rfl

/-! ## The pipeline's proof data -/

/-- The proof data of pipeline 2 on core `c`: the arrays as the region finds them; after the body each operand's buffer
    at its block and the result's at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the operands' buffers hold their blocks; the closed forms say which case the point is in;
    the invariant hands the body the accumulators at what the point before left (at anything at the first point) and
    takes them back at this point's contents; away from the last point the result's buffer passes through untouched,
    at the last it is left at the stored result; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 25 := lt_of_lt_of_eq t.isLt (show cfg2.N = 25 from N_2)
  by_cases h0 : t.val % 25 = 0
  · have hz : t.val = 0 := by omega
    have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1)]
    rw [acc2_0_first V c t hz, acc2_1_first V c t hz]
    rw [PhiS2_castSucc V c t, PhiS2_zero V c _ _ hz, PhiA2_eq]
    iintro ⟨⟨⟨Hoth, HS0, HS1⟩, Hg⟩, Ho, ⟨%d0, H0⟩, ⟨%d1, H1⟩, ⟨%d2, H2⟩, ⟨%d3, H3⟩, ⟨%d4, H4⟩⟩
    iapply (sound_kernel2_A c Set.univ (grid2.coords t) hc0 hc1 _ _ _ _ _ _ _ _ _ _ _ _ _ _ (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [Hoth HS0 HS1 Hg]
    · isplitl [Hoth HS0 HS1]
      · isplitl [Hoth]; · iexact Hoth
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    have hc0 : ¬cond2_0 (grid2.coords t) := fun h => h0 ((hcond2_0 t).mp h)
    by_cases h1 : t.val % 25 = 24
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4, out2_eq V c t]
      rw [acc2_0_later V c t hz, acc2_1_later V c t hz]
      rw [PhiS2_castSucc V c t, PhiS2_pos V c _ _ hz]
      iintro ⟨⟨⟨Hoth, HS0, HS1⟩, Hg⟩, Ho, ⟨%d0, H0⟩, ⟨%d1, H1⟩, ⟨%d2, H2⟩, ⟨%d3, H3⟩, ⟨%d4, H4⟩⟩
      iapply (sound_kernel2_C c Set.univ (grid2.coords t) hc0 hc1 _ _ _ _ _ _ _ _ _ _ _ _ _ _ (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [Hoth HS0 HS1 Hg]
      · isplitl [Hoth HS0 HS1]
        · isplitl [Hoth]; · iexact Hoth
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t hc1)]
      rw [acc2_0_later V c t hz, acc2_1_later V c t hz]
      rw [PhiS2_castSucc V c t, PhiS2_pos V c _ _ hz]
      iintro ⟨⟨⟨Hoth, HS0, HS1⟩, Hg⟩, Ho, ⟨%d0, H0⟩, ⟨%d1, H1⟩, ⟨%d2, H2⟩, ⟨%d3, H3⟩, ⟨%d4, H4⟩⟩
      iapply (sound_kernel2_B c Set.univ (grid2.coords t) hc0 hc1 _ _ _ _ _ _ _ _ _ _ _ _ _ _ (iblk2 V c 0 t) (iblk2 V c 1 t) (iblk2 V c 2 t) (iblk2 V c 3 t) _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [Hoth HS0 HS1 Hg]
      · isplitl [Hoth HS0 HS1]
        · isplitl [Hoth]; · iexact Hoth
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives that back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨Hoth, HS0, HS1⟩, Hg⟩
  isplitl [Hoth HS0 HS1]
  · isplitl [Hoth]; · iexact Hoth
    isplitl [HS0]; · iexists _; iexact HS0
    iexists _; iexact HS1
  iexact Hg

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

/-! ## The recurrences the accumulators satisfy -/

/-- After the first point: one step from zero. -/
theorem outsAt2_zero (c : Dev nD) (h0 : 0 < cfg2.N) :
    (outsAt2 V c 0 h0).2 = (k2_pay4 (iblk2 V c 1 ⟨0, h0⟩) (iblk2 V c 0 ⟨0, h0⟩) k2_pay1, k2_pay5 (iblk2 V c 1 ⟨0, h0⟩) k2_pay2) := rfl

/-- After a later point: one step from what the point before left. -/
theorem outsAt2_succ (c : Dev nD) (n : ℕ) (hn : n + 1 < cfg2.N) :
    (outsAt2 V c (n + 1) hn).2 = (k2_pay4 (iblk2 V c 1 ⟨n + 1, hn⟩) (iblk2 V c 0 ⟨n + 1, hn⟩) (outsAt2 V c n (Nat.lt_of_succ_lt hn)).2.1, k2_pay5 (iblk2 V c 1 ⟨n + 1, hn⟩) (outsAt2 V c n (Nat.lt_of_succ_lt hn)).2.2) := rfl

/-- What the last point stores as the result: the normalised and projected accumulators. -/
theorem outsAt2_last (c : Dev nD) (h : 24 < cfg2.N) :
    (outsAt2 V c 24 h).1 = k2_pay6 (outsAt2 V c 24 h).2.1 (outsAt2 V c 24 h).2.2 (iblk2 V c 2 ⟨24, h⟩) (iblk2 V c 3 ⟨24, h⟩) :=
  out2_eq V c ⟨24, h⟩

end Cert.Kernel.Fr

end
-- ==== Proof.K.Run.lean ====
/-
  The program's run. @main is three regions among stretches of host operations. Between two items a core holds every
  unscoped buffer at a known valuation; a region changes only its result array, to what its write-backs leave
  (the fold of the flushed blocks over the entry contents). Each region is a segment over these valuations, and the
  run of the segments gives: the program terminates without a fault, and every unscoped buffer ends at the last
  valuation. The frame — the argument arrays end as launched — is read off it.
-/
import proofs.«409070_j24455543783861_2_alg».proof.Proof.K.Reg0
import proofs.«409070_j24455543783861_2_alg».proof.Proof.K.Reg1
import proofs.«409070_j24455543783861_2_alg».proof.Proof.K.Reg2
import proofs.«409070_j24455543783861_2_alg».proof.Proof.K.RunCond

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, region by region -/

/-- The buffers as region 0 finds them: the launch contents after the first stretch of host operations. -/
abbrev E1 : (c : Dev nD) → (b : Ref sig .tc) → Buf (Elt F) ((c : Thread nD τ).loc b) := fun c b => V1 m c b
/-- At region 0's exit: its arrays at what the pipeline leaves, every other buffer as entered. -/
def X2 (c : Dev nD) : Valuation τ sig (Elt F) :=
  Pipeline.withArrays spec0 c (V1 m c) fun w => (dat0 (E1 m) c).arrAt w cfg0.N
/-- The unknowns of the valuation chain with region 0's result filled in. -/
def o2 : Outs (F := F) := fun _ r c => X2 m c r
/-- The buffers as region 1 finds them. -/
abbrev E5 : (c : Dev nD) → (b : Ref sig .tc) → Buf (Elt F) ((c : Thread nD τ).loc b) := fun c b => V5 m (o2 m) c b
def X6 (c : Dev nD) : Valuation τ sig (Elt F) :=
  Pipeline.withArrays spec1 c (V5 m (o2 m) c) fun w => (dat1 (E5 m) c).arrAt w cfg1.N
/-- … with region 1's result filled in too. -/
def o6 : Outs (F := F)
  | 6 => fun r c => X6 m c r
  | _ => fun r c => X2 m c r
/-- The buffers as region 2 finds them. -/
abbrev E9 : (c : Dev nD) → (b : Ref sig .tc) → Buf (Elt F) ((c : Thread nD τ).loc b) := fun c b => V9 m (o6 m) c b
def X10 (c : Dev nD) : Valuation τ sig (Elt F) :=
  Pipeline.withArrays spec2 c (V9 m (o6 m) c) fun w => (dat2 (E9 m) c).arrAt w cfg2.N
/-- What the three regions leave in their result arrays: the unknowns of the valuation chain, all filled in. -/
def outs : Outs (F := F)
  | 10 => fun r c => X10 m c r
  | 6 => fun r c => X6 m c r
  | _ => fun r c => X2 m c r

theorem outs_2 (c : Dev nD) : outs m 2 main_v4 c = (dat0 (E1 m) c).arrAt 2 cfg0.N := by
  show X2 m c main_v4 = _
  unfold X2; exact Pipeline.withArrays_arr spec0 launch0.win.arr_inj c _ _ 2
theorem outs_6 (c : Dev nD) : outs m 6 main_v47 c = (dat1 (E5 m) c).arrAt 2 cfg1.N := by
  show X6 m c main_v47 = _
  unfold X6; exact Pipeline.withArrays_arr spec1 launch1.win.arr_inj c _ _ 2
theorem outs_10 (c : Dev nD) : outs m 10 main_v92 c = (dat2 (E9 m) c).arrAt 4 cfg2.N := by
  show X10 m c main_v92 = _
  unfold X10; exact Pipeline.withArrays_arr spec2 launch2.win.arr_inj c _ _ 4

/-- The valuations before regions 1 and 2 read only the earlier regions' results. -/
theorem V5_outs (c : Dev nD) : V5 m (outs m) c = V5 m (o2 m) c := rfl
theorem V9_outs (c : Dev nD) : V9 m (outs m) c = V9 m (o6 m) c := rfl

/-! ## The proof data family and the thread state -/

def pdats : (p : Fin 3) → (c : Dev nD) → Dat τ (Elt F) Unit ℕ (UR sig nD τ) ℕ (cfgs p) c
  | ⟨0, _⟩ => fun c => dat0 (E1 m) c
  | ⟨1, _⟩ => fun c => dat1 (E5 m) c
  | ⟨2, _⟩ => fun c => dat2 (E9 m) c
  | ⟨_ + 3, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## Each region's arrays at its exit -/

theorem hF0 (c : Dev nD) (w : Fin cfg0.W) : (pdats m 0 c).arrAt w cfg0.N = V2 m (outs m) c (Pipeline.arrRef spec0 w) := by
  match w with
  | ⟨0, _⟩ => exact ((dat0 (E1 m) c).arrAt_in 0 rfl _).trans ((A_eq0 (E1 m) c 0).trans (V2_of m (outs m) c main_arg0 (by decide)).symm)
  | ⟨1, _⟩ => exact ((dat0 (E1 m) c).arrAt_in 1 rfl _).trans ((A_eq0 (E1 m) c 1).trans (V2_of m (outs m) c main_arg3 (by decide)).symm)
  | ⟨2, _⟩ => exact (outs_2 m c).symm.trans (by simp only [V2, Function.update_self])
theorem hrest0 (c : Dev nD) : ∀ b, b ∉ Finset.univ.image (Pipeline.arrRef spec0) → V2 m (outs m) c b = E1 m c b :=
  fun b hb => V2_of m (outs m) c b (by
    simp only [List.mem_singleton]; intro e; subst e
    exact hb (Finset.mem_image.mpr ⟨2, Finset.mem_univ _, rfl⟩))

theorem hF1 (c : Dev nD) (w : Fin cfg1.W) : (pdats m 1 c).arrAt w cfg1.N = V6 m (outs m) c (Pipeline.arrRef spec1 w) := by
  match w with
  | ⟨0, _⟩ => exact ((dat1 (E5 m) c).arrAt_in 0 rfl _).trans ((A_eq1 (E5 m) c 0).trans (V6_of m (outs m) c main_v46 (by decide)).symm)
  | ⟨1, _⟩ => exact ((dat1 (E5 m) c).arrAt_in 1 rfl _).trans ((A_eq1 (E5 m) c 1).trans (V6_of m (outs m) c main_arg5 (by decide)).symm)
  | ⟨2, _⟩ => exact (outs_6 m c).symm.trans (by simp only [V6, Function.update_self])
theorem hrest1 (c : Dev nD) : ∀ b, b ∉ Finset.univ.image (Pipeline.arrRef spec1) → V6 m (outs m) c b = E5 m c b :=
  fun b hb => V6_of m (outs m) c b (by
    simp only [List.mem_singleton]; intro e; subst e
    exact hb (Finset.mem_image.mpr ⟨2, Finset.mem_univ _, rfl⟩))

set_option maxHeartbeats 2000000 in
theorem hF2 (c : Dev nD) (w : Fin cfg2.W) : (pdats m 2 c).arrAt w cfg2.N = V10 m (outs m) c (Pipeline.arrRef spec2 w) := by
  match w with
  | ⟨0, _⟩ => exact ((dat2 (E9 m) c).arrAt_in 0 rfl _).trans ((A_eq2 (E9 m) c 0).trans (V10_of m (outs m) c main_v89 (by decide)).symm)
  | ⟨1, _⟩ => exact ((dat2 (E9 m) c).arrAt_in 1 rfl _).trans ((A_eq2 (E9 m) c 1).trans (V10_of m (outs m) c main_v90 (by decide)).symm)
  | ⟨2, _⟩ => exact ((dat2 (E9 m) c).arrAt_in 2 rfl _).trans ((A_eq2 (E9 m) c 2).trans (V10_of m (outs m) c main_arg7 (by decide)).symm)
  | ⟨3, _⟩ => exact ((dat2 (E9 m) c).arrAt_in 3 rfl _).trans ((A_eq2 (E9 m) c 3).trans (V10_of m (outs m) c main_v91 (by decide)).symm)
  | ⟨4, _⟩ => exact (outs_10 m c).symm.trans (by simp only [V10, Function.update_self])
theorem hrest2 (c : Dev nD) : ∀ b, b ∉ Finset.univ.image (Pipeline.arrRef spec2) → V10 m (outs m) c b = E9 m c b :=
  fun b hb => V10_of m (outs m) c b (by
    simp only [List.mem_singleton]; intro e; subst e
    exact hb (Finset.mem_image.mpr ⟨4, Finset.mem_univ _, rfl⟩))

/-! ## The regions as segments -/

set_option backward.isDefEq.respectTransparency.types false in
/-- Region 0 as a segment of @main: entered with every unscoped buffer at the valuation before it, left with them at the
    valuation after it. Its windows' arrays are split out of the unscoped buffers on entry and put back at what the
    write-backs leave on exit; the generator register goes into the region's invariant and comes back; the core owes
    nothing; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the valuation before it, left with them at the
    valuation after it. Its windows' arrays are split out of the unscoped buffers on entry and put back at what the
    write-backs leave on exit; the generator register goes into the region's invariant and comes back; the core owes
    nothing; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (V5 m (o2 m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main: entered with every unscoped buffer at the valuation before it, left with them at the
    valuation after it. Its windows' arrays are split out of the unscoped buffers on entry and put back at what the
    write-backs leave on exit; the generator register goes into the region's invariant and comes back; the core owes
    nothing; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (V9 m (o6 m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (E9 m) c)
    unfold Pipeline.ΦA
    iintro ⟨Hp, -, Hr⟩
    isplitl [Hr]; · iexact Hr
    iexact Hp
  hout c := by
    refine (hout2 (E9 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E9 m c) (fun b => V10 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any launch memory with zero counters, every weakly fair execution of @main terminates without a fault, and
    every unscoped buffer ends at the last valuation of the chain. -/
theorem run_vals : θ_run defs (onTc (τ := τ) (main (F := F))) ⟨m, fun _ => 0, ρ⟩ (fun r => ∀ c : Dev nD,
      ∀ b ∈ Pipeline.ucRefs τ sig, r.2.mem ((c : Thread nD τ).1, b) = V10 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hm : (bigSep Finset.univ (fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp))) : sProp 𝕄)
          ⊢ bigSep Finset.univ (fun c : Dev nD => R (F := F) c) :=
        bigSep_mono fun c _ => by
          show (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ R (F := F) c
          iintro ⟨-, HO, -, Hp, -⟩
          isplitl [Hp]; · iexists _; iexact Hp
          iexists ∅; iexact HO
      iintro ⟨H, -⟩
      imodintro
      iapply hm
      iexact H)
    (hE3 := fun c => by iintro ⟨-, HO⟩; iexact HO)
    (reg0 m) (fun c => .rfl) (fun c => .rfl)
    (reg1 m) (fun c => by rw [V5_outs m c]; exact .rfl) (fun c => .rfl)
    (reg2 m) (fun c => by rw [V9_outs m c]; exact .rfl) (fun c => .rfl)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program terminates without a fault and every argument array ends as launched — no stretch of host
    operations writes an argument and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (V10_main_arg0 m (outs m) c),
     (h c _ (mem_uc main_arg1 (by decide))).trans (V10_main_arg1 m (outs m) c),
     (h c _ (mem_uc main_arg2 (by decide))).trans (V10_main_arg2 m (outs m) c),
     (h c _ (mem_uc main_arg3 (by decide))).trans (V10_main_arg3 m (outs m) c),
     (h c _ (mem_uc main_arg4 (by decide))).trans (V10_main_arg4 m (outs m) c),
     (h c _ (mem_uc main_arg5 (by decide))).trans (V10_main_arg5 m (outs m) c),
     (h c _ (mem_uc main_arg6 (by decide))).trans (V10_main_arg6 m (outs m) c),
     (h c _ (mem_uc main_arg7 (by decide))).trans (V10_main_arg7 m (outs m) c),
     (h c _ (mem_uc main_arg8 (by decide))).trans (V10_main_arg8 m (outs m) c)⟩) (run_vals m ρ)

end Cert.Kernel.Fr

end
-- ==== Proof.KI.Reg0.lean ====
/-
  Region 0 of the program: a row-tiled linear projection. At a grid point the body reads a block of 4000 rows of
  its left operand and the whole weight matrix and stores the body's product of the two (the payload of its one store)
  as the same 4000 rows of the result. Stated at a parameter `V`, the contents of the buffers when the region is entered:
  what each window's block is, what the body leaves in the result's staging buffer, the body's triple and the
  pipeline's proof data with its body obligation.
-/
import proofs.«409070_j24455543783861_2_alg».proof.Proof.Gen.KernelIdeal.Launch
import proofs.«409070_j24455543783861_2_alg».proof.Proof.Gen.KernelIdeal.Skeleton
import proofs.«409070_j24455543783861_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left operand is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rIn0 : Rect S4000x128 := Rect.unit (s := S4000x128) ![0, 0] S4000x128.size inb_S4000x128_S4000x128_0_0
abbrev rW0 : Rect S128x32 := Rect.unit (s := S128x32) ![0, 0] S128x32.size inb_S128x32_S128x32_0_0
abbrev rOut0 : Rect S4000x32 := Rect.unit (s := S4000x32) ![0, 0] S4000x32.size inb_S4000x32_S4000x32_0_0

/-- What the body leaves in the result's staging buffer: its one store, of the product of the two loads. -/
def out0_2 (x0 : Vec F S4000x128 .f32) (x1 : Vec F S128x32 .f32) : Vec F S4000x32 .f32 :=
  View.canon [⟨rOut0, k0_pay1 (View.ld x0 rIn0) (View.ld x1 rW0)⟩]

theorem cover0_2 (p0 : Vec F S4000x32 .f32) (y : S4000x32.Idx) :
    ∃ pc ∈ ([⟨rOut0, p0⟩] : List (View.Piece (Elt F) S4000x32 .f32)), y ∈ pc.1.set :=
  View.cover_of_tiled [⟨rOut0, p0⟩] S4000x32.size (by rfl) y

set_option maxHeartbeats 1000000 in
/-- The body on whole staging memrefs: the operands' buffers are read and kept, the result's buffer ends at the product. -/
theorem sound_kernel0 (c : Dev nD) (E : Set ℕ) (i : grid0.Coords) (arg1 : Memref sig .tc .vmem S4000x128 .f32) (harg1 : arg1.IsWhole) (arg2 : Memref sig .tc .vmem S128x32 .f32) (harg2 : arg2.IsWhole)
    (arg3 : Memref sig .tc .vmem S4000x32 .f32) (harg3 : arg3.IsWhole)
    (x0 : Vec F S4000x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each operand's buffer
    at its block and the result's at the product of the two blocks; the scoped rest and the generator register pass through. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so the triple applies; the invariant passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  Region 1 of the program: a row-tiled linear projection. At a grid point the body reads a block of 4000 rows of
  its left operand and the whole weight matrix and stores the body's product of the two (the payload of its one store)
  as the same 4000 rows of the result. Stated at a parameter `V`, the contents of the buffers when the region is entered:
  what each window's block is, what the body leaves in the result's staging buffer, the body's triple and the
  pipeline's proof data with its body obligation.
-/
import proofs.«409070_j24455543783861_2_alg».proof.Proof.Gen.KernelIdeal.Launch
import proofs.«409070_j24455543783861_2_alg».proof.Proof.Gen.KernelIdeal.Skeleton
import proofs.«409070_j24455543783861_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the left operand is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix, fetched once, is in its staging buffer at every point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rIn1 : Rect S4000x32 := Rect.unit (s := S4000x32) ![0, 0] S4000x32.size inb_S4000x32_S4000x32_0_0
abbrev rW1 : Rect S32x32 := Rect.unit (s := S32x32) ![0, 0] S32x32.size inb_S32x32_S32x32_0_0
abbrev rOut1 : Rect S4000x32 := Rect.unit (s := S4000x32) ![0, 0] S4000x32.size inb_S4000x32_S4000x32_0_0

/-- What the body leaves in the result's staging buffer: its one store, of the product of the two loads. -/
def out1_2 (x0 : Vec F S4000x32 .f32) (x1 : Vec F S32x32 .f32) : Vec F S4000x32 .f32 :=
  View.canon [⟨rOut1, k1_pay1 (View.ld x0 rIn1) (View.ld x1 rW1)⟩]

theorem cover1_2 (p0 : Vec F S4000x32 .f32) (y : S4000x32.Idx) :
    ∃ pc ∈ ([⟨rOut1, p0⟩] : List (View.Piece (Elt F) S4000x32 .f32)), y ∈ pc.1.set :=
  View.cover_of_tiled [⟨rOut1, p0⟩] S4000x32.size (by rfl) y

set_option maxHeartbeats 1000000 in
/-- The body on whole staging memrefs: the operands' buffers are read and kept, the result's buffer ends at the product. -/
theorem sound_kernel1 (c : Dev nD) (E : Set ℕ) (i : grid1.Coords) (arg1 : Memref sig .tc .vmem S4000x32 .f32) (harg1 : arg1.IsWhole) (arg2 : Memref sig .tc .vmem S32x32 .f32) (harg2 : arg2.IsWhole)
    (arg3 : Memref sig .tc .vmem S4000x32 .f32) (harg3 : arg3.IsWhole)
    (x0 : Vec F S4000x32 .f32) (x1 : Vec F S32x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body each operand's buffer
    at its block and the result's at the product of the two blocks; the scoped rest and the generator register pass through. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' buffers hold their blocks, so the triple applies; the invariant passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  Region 2 of the program: the pooling kernel. Over a grid of 25 points the body adds, into two accumulators it keeps
  between the points (zeroed at the first), the one-hot segment sums of a block of 4000 rows and the segment counts; at
  the last point it stores the normalised, projected sums as the result, whose staging buffer it leaves untouched
  everywhere else. Stated at a parameter `V`, the contents of the buffers when the region is entered: what each
  window's block is, the body's triple in each of its three control cases, what the result's buffer and the two
  accumulators hold after each point, the pipeline's proof data with its body obligation, and the recurrences the
  accumulators satisfy.
-/
import proofs.«409070_j24455543783861_2_alg».proof.Proof.Gen.KernelIdeal.Launch
import proofs.«409070_j24455543783861_2_alg».proof.Proof.Gen.KernelIdeal.Skeleton
import proofs.«409070_j24455543783861_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the features is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row block of the segment ids is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The weight matrix, fetched once, is in its staging buffer at every point: its block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The bias row, fetched once, is in its staging buffer at every point: its block index never moves. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions on the grid coordinate -/

/-- The body's first conditional, from the grid coordinate: the point is the first. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 25 = 0 :=
  (by decide +kernel : ∀ t : Fin grid2.N, cond2_0 (grid2.coords t) ↔ t.val % 25 = 0)

/-- The body's second conditional: the point is the last. -/
abbrev cond2_1 (i : grid2.Coords) : Prop := k2_cond2 i = 1#1
/-- It holds at point 24 only. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last point the result's window is idle: the body stores nothing into it there, -/
theorem idleAt2_4 : ∀ t : Fin cfg2.N, ¬cond2_1 (grid2.coords t) → cfg2.idle 4 (grid2.coords t) = true := by decide +kernel
/-- and the pipeline does not write its block back. -/
theorem noFlush2_4 : ∀ t : Fin cfg2.N, ¬cond2_1 (grid2.coords t) → (cfg2.win 4).flush t = false := by decide +kernel
/-- At the last point it is live. -/
theorem liveAt2_4 : ∀ t : Fin cfg2.N, cond2_1 (grid2.coords t) → cfg2.idle 4 (grid2.coords t) = false := by decide +kernel

/-! ## The memrefs the body is called with -/

abbrev ms2_0 (t : Fin cfg2.N) : Memref sig .tc .vmem S4000x32 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S32x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x32 .f32 := win2_4.stage (cfg2.slots t 4)
abbrev hs2_4 (t : Fin cfg2.N) : (ms2_4 t).IsWhole := hstage2_4 ((cfg2.slots t 4).cast nbuf2_4)
/-- The two accumulators: whole scoped buffers of the kernel's own, passed beside the windows. -/
abbrev scM2_0 : Memref sig .tc .vmem S64x32 .f32 := Memref.whole cc2_scratch0
abbrev scM2_1 : Memref sig .tc .vmem S64x1 .f32 := Memref.whole cc2_scratch1

/-- The staging buffers of the other two regions, each whole at some contents: they ride along untouched. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the region: the other regions' staging buffers, the two accumulators at some contents,
    and the generator register at some state. -/
theorem PhiA2_eq (c : Dev nD) :
    (Pipeline.ΦA spec2 c : sProp 𝕄)
      = iprop(iprop(others2 (F := F) c ∗ (∃ d, owns (c : Thread nD τ) scM2_0 fullShare d) ∗ (∃ d, owns (c : Thread nD τ) scM2_1 fullShare d)) ∗ (∃ r, prngReg c r)) := by
  unfold Pipeline.ΦA; rw [scopedRest2_eq]; unfold others2; simp only [scM2_0, scM2_1, owns_whole]
  refine congrArg (fun X => iprop(X ∗ (∃ r, prngReg c r))) ?_
  refine BI.Entails.antisymm (show _ ⊢ (_ : sProp 𝕄) from ?_) (show _ ⊢ (_ : sProp 𝕄) from ?_)
  · iintro ⟨A0, A1, A2, A3, A4, A5, A6, A7, A8, A9, S0, S1⟩
    isplitl [A0 A1 A2 A3 A4 A5 A6 A7 A8 A9]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    isplitl [S0]; · iexact S0
    iexact S1
  · iintro ⟨⟨A0, A1, A2, A3, A4, A5, A6, A7, A8, A9⟩, S0, S1⟩
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    iexact S1

/-! ## The body's triple in each control case -/

theorem hz2 : (![0, 0] : Fin 2 → Nat) = fun _ => 0 := funext fun a => by fin_cases a <;> rfl

/-- A list of writes whose last is a store through the whole shape reads back as that store's payload, whatever came
    before it. -/
theorem read_writes_last_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨⟨Rect.unit off S.size inb, w⟩, List.mem_cons_self .., View.mem_set_unit_zero h inb y⟩),
    View.canon_cons_unit_zero h]

set_option maxHeartbeats 4000000 in
/-- The body at the first point, on whole memrefs: the four operands' buffers are read and kept, the result's buffer is
    handed back untouched, and the accumulators, found at anything, are zeroed and then end one step from zero. -/
theorem sound_kernel2_A (c : Dev nD) (E : Set ℕ) (i : grid2.Coords) (hc0 : cond2_0 i) (hc1 : ¬cond2_1 i)
    (arg1 : Memref sig .tc .vmem S4000x32 .f32) (harg1 : arg1.IsWhole) (arg2 : Memref sig .tc .vmem S4000x1 .i32) (harg2 : arg2.IsWhole) (arg3 : Memref sig .tc .vmem S32x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S64x1 .f32) (harg7 : arg7.IsWhole)
    (x0 : Vec F S4000x32 .f32) (x1 : Vec F S4000x1 .i32) (x2 : Vec F S32x32 .f32) (x3 : Vec F S1x32 .f32) (xi : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi
            ∗ owns (c : Thread nD τ) arg6 fullShare (k2_pay4 x1 x0 k2_pay1) ∗ owns (c : Thread nD τ) arg7 fullShare (k2_pay5 x1 k2_pay2)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_last_whole2 (S := S64x32) _ _ hz2]
    try simp only [View.readCov_unit_zero (S := S64x32) _ hz2, View.readCov_unit_zero (S := S64x1) _ hz2, View.readAt_eq_ld,
      View.ld_unit_zero (S := S4000x32) hz2, View.ld_unit_zero (S := S4000x1) hz2, View.ld_unit_zero (S := S32x32) hz2,
      View.ld_unit_zero (S := S1x32) hz2, View.ld_unit_zero (S := S64x32) hz2, View.ld_unit_zero (S := S64x1) hz2]
  iexists _; isplitr
  swap; · iexact H6
  ipureintro
  sl_unfold_run_names
  rw [read_writes_last_whole2 (S := S64x1) _ _ hz2]
  try simp only [View.readCov_unit_zero (S := S64x32) _ hz2, View.readCov_unit_zero (S := S64x1) _ hz2, View.readAt_eq_ld,
    View.ld_unit_zero (S := S4000x32) hz2, View.ld_unit_zero (S := S4000x1) hz2, View.ld_unit_zero (S := S32x32) hz2,
    View.ld_unit_zero (S := S1x32) hz2, View.ld_unit_zero (S := S64x32) hz2, View.ld_unit_zero (S := S64x1) hz2]

set_option maxHeartbeats 4000000 in
/-- The body at a point that is neither first nor last: the operands' buffers are read and kept, the result's buffer is
    handed back untouched, and each accumulator ends one step on from what it held. -/
theorem sound_kernel2_B (c : Dev nD) (E : Set ℕ) (i : grid2.Coords) (hc0 : ¬cond2_0 i) (hc1 : ¬cond2_1 i)
    (arg1 : Memref sig .tc .vmem S4000x32 .f32) (harg1 : arg1.IsWhole) (arg2 : Memref sig .tc .vmem S4000x1 .i32) (harg2 : arg2.IsWhole) (arg3 : Memref sig .tc .vmem S32x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S64x1 .f32) (harg7 : arg7.IsWhole)
    (x0 : Vec F S4000x32 .f32) (x1 : Vec F S4000x1 .i32) (x2 : Vec F S32x32 .f32) (x3 : Vec F S1x32 .f32) (xi : Vec F S64x32 .f32) (xs0 : Vec F S64x32 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi
            ∗ owns (c : Thread nD τ) arg6 fullShare (k2_pay4 x1 x0 xs0) ∗ owns (c : Thread nD τ) arg7 fullShare (k2_pay5 x1 xs1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_last_whole2 (S := S64x32) _ _ hz2]
    try simp only [View.readCov_unit_zero (S := S64x32) _ hz2, View.readCov_unit_zero (S := S64x1) _ hz2, View.readAt_eq_ld,
      View.ld_unit_zero (S := S4000x32) hz2, View.ld_unit_zero (S := S4000x1) hz2, View.ld_unit_zero (S := S32x32) hz2,
      View.ld_unit_zero (S := S1x32) hz2, View.ld_unit_zero (S := S64x32) hz2, View.ld_unit_zero (S := S64x1) hz2]
  iexists _; isplitr
  swap; · iexact H6
  ipureintro
  sl_unfold_run_names
  rw [read_writes_last_whole2 (S := S64x1) _ _ hz2]
  try simp only [View.readCov_unit_zero (S := S64x32) _ hz2, View.readCov_unit_zero (S := S64x1) _ hz2, View.readAt_eq_ld,
    View.ld_unit_zero (S := S4000x32) hz2, View.ld_unit_zero (S := S4000x1) hz2, View.ld_unit_zero (S := S32x32) hz2,
    View.ld_unit_zero (S := S1x32) hz2, View.ld_unit_zero (S := S64x32) hz2, View.ld_unit_zero (S := S64x1) hz2]

set_option maxHeartbeats 4000000 in
/-- The body at the last point: as at a middle point, and the result's buffer, found at anything, ends at the
    normalised and projected accumulators. -/
theorem sound_kernel2_C (c : Dev nD) (E : Set ℕ) (i : grid2.Coords) (hc0 : ¬cond2_0 i) (hc1 : cond2_1 i)
    (arg1 : Memref sig .tc .vmem S4000x32 .f32) (harg1 : arg1.IsWhole) (arg2 : Memref sig .tc .vmem S4000x1 .i32) (harg2 : arg2.IsWhole) (arg3 : Memref sig .tc .vmem S32x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S64x1 .f32) (harg7 : arg7.IsWhole)
    (x0 : Vec F S4000x32 .f32) (x1 : Vec F S4000x1 .i32) (x2 : Vec F S32x32 .f32) (x3 : Vec F S1x32 .f32) (xs0 : Vec F S64x32 .f32) (xs1 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k2_pay6 (k2_pay4 x1 x0 xs0) (k2_pay5 x1 xs1) x2 x3)
            ∗ owns (c : Thread nD τ) arg6 fullShare (k2_pay4 x1 x0 xs0) ∗ owns (c : Thread nD τ) arg7 fullShare (k2_pay5 x1 xs1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_last_whole2 (S := S64x32) _ _ hz2]
    try simp only [View.readCov_unit_zero (S := S64x32) _ hz2, View.readCov_unit_zero (S := S64x1) _ hz2, View.readAt_eq_ld,
      View.ld_unit_zero (S := S4000x32) hz2, View.ld_unit_zero (S := S4000x1) hz2, View.ld_unit_zero (S := S32x32) hz2,
      View.ld_unit_zero (S := S1x32) hz2, View.ld_unit_zero (S := S64x32) hz2, View.ld_unit_zero (S := S64x1) hz2]
  isplitl [H5]
  · iexists _; isplitr
    swap; · iexact H5
    ipureintro
    sl_unfold_run_names
    rw [read_writes_last_whole2 (S := S64x32) _ _ hz2]
    try simp only [View.readCov_unit_zero (S := S64x32) _ hz2, View.readCov_unit_zero (S := S64x1) _ hz2, View.readAt_eq_ld,
      View.ld_unit_zero (S := S4000x32) hz2, View.ld_unit_zero (S := S4000x1) hz2, View.ld_unit_zero (S := S32x32) hz2,
      View.ld_unit_zero (S := S1x32) hz2, View.ld_unit_zero (S := S64x32) hz2, View.ld_unit_zero (S := S64x1) hz2]
  iexists _; isplitr
  swap; · iexact H6
  ipureintro
  sl_unfold_run_names
  rw [read_writes_last_whole2 (S := S64x1) _ _ hz2]
  try simp only [View.readCov_unit_zero (S := S64x32) _ hz2, View.readCov_unit_zero (S := S64x1) _ hz2, View.readAt_eq_ld,
    View.ld_unit_zero (S := S4000x32) hz2, View.ld_unit_zero (S := S4000x1) hz2, View.ld_unit_zero (S := S32x32) hz2,
    View.ld_unit_zero (S := S1x32) hz2, View.ld_unit_zero (S := S64x32) hz2, View.ld_unit_zero (S := S64x1) hz2]

/-! ## What the result's buffer and the accumulators hold after each point -/

/-- One point's step from accumulators `s0`, `s1` over the point's blocks: the accumulators one step on, and beside
    them the normalised and projected accumulators, which is what the last point stores as the result. -/
def step2 (b0 : Vec F S4000x32 .f32) (b1 : Vec F S4000x1 .i32) (b2 : Vec F S32x32 .f32) (b3 : Vec F S1x32 .f32)
    (s0 : Vec F S64x32 .f32) (s1 : Vec F S64x1 .f32) : Vec F S64x32 .f32 × Vec F S64x32 .f32 × Vec F S64x1 .f32 :=
  (k2_pay6 (k2_pay4 b1 b0 s0) (k2_pay5 b1 s1) b2 b3, k2_pay4 b1 b0 s0, k2_pay5 b1 s1)

/-- THE ACCUMULATION. After the body at position `n`: what the result's staging buffer holds (at the last point; at
    the others, where the window is idle and nothing consults it, the same expression as a placeholder), and the two
    accumulators: from zero at the first point, from what the point before left afterwards. -/
def outsAt2 (c : Dev nD) : (n : ℕ) → n < cfg2.N → Vec F S64x32 .f32 × Vec F S64x32 .f32 × Vec F S64x1 .f32
  | 0, hn => step2 (iblk2 V c 0 ⟨0, hn⟩) (iblk2 V c 1 ⟨0, hn⟩) (iblk2 V c 2 ⟨0, hn⟩) (iblk2 V c 3 ⟨0, hn⟩) k2_pay1 k2_pay2
  | n + 1, hn => step2 (iblk2 V c 0 ⟨n + 1, hn⟩) (iblk2 V c 1 ⟨n + 1, hn⟩) (iblk2 V c 2 ⟨n + 1, hn⟩) (iblk2 V c 3 ⟨n + 1, hn⟩)
      (outsAt2 c n (Nat.lt_of_succ_lt hn)).2.1 (outsAt2 c n (Nat.lt_of_succ_lt hn)).2.2

/-- The first accumulator after the first point: one step from zero. -/
theorem acc2_0_first (c : Dev nD) (t : Fin cfg2.N) (hz : t.val = 0) :
    (outsAt2 V c t.val t.isLt).2.1 = k2_pay4 (iblk2 V c 1 t) (iblk2 V c 0 t) k2_pay1 := by
  obtain ⟨n, hn⟩ := t
  cases n with
  | zero => rfl
  | succ n => exact absurd hz (Nat.succ_ne_zero n)

/-- The second accumulator after the first point: one step from zero. -/
theorem acc2_1_first (c : Dev nD) (t : Fin cfg2.N) (hz : t.val = 0) :
    (outsAt2 V c t.val t.isLt).2.2 = k2_pay5 (iblk2 V c 1 t) k2_pay2 := by
  obtain ⟨n, hn⟩ := t
  cases n with
  | zero => rfl
  | succ n => exact absurd hz (Nat.succ_ne_zero n)

/-- The first accumulator after a later point: one step from what the point before left. -/
theorem acc2_0_later (c : Dev nD) (t : Fin cfg2.N) (hz : t.val ≠ 0) :
    (outsAt2 V c t.val t.isLt).2.1 = k2_pay4 (iblk2 V c 1 t) (iblk2 V c 0 t) (outsAt2 V c (t.val - 1) (Nat.lt_of_le_of_lt (Nat.sub_le _ _) t.isLt)).2.1 := by
  obtain ⟨n, hn⟩ := t
  cases n with
  | zero => exact absurd rfl hz
  | succ n => rfl

/-- The second accumulator after a later point: one step from what the point before left. -/
theorem acc2_1_later (c : Dev nD) (t : Fin cfg2.N) (hz : t.val ≠ 0) :
    (outsAt2 V c t.val t.isLt).2.2 = k2_pay5 (iblk2 V c 1 t) (outsAt2 V c (t.val - 1) (Nat.lt_of_le_of_lt (Nat.sub_le _ _) t.isLt)).2.2 := by
  obtain ⟨n, hn⟩ := t
  cases n with
  | zero => exact absurd rfl hz
  | succ n => rfl

/-- The first component at any point: the normalised and projected accumulators of that point. -/
theorem out2_eq (c : Dev nD) (t : Fin cfg2.N) :
    (outsAt2 V c t.val t.isLt).1 = k2_pay6 (outsAt2 V c t.val t.isLt).2.1 (outsAt2 V c t.val t.isLt).2.2 (iblk2 V c 2 t) (iblk2 V c 3 t) := by
  obtain ⟨n, hn⟩ := t
  cases n with
  | zero => rfl
  | succ n => rfl

/-- The region invariant before position `n`: before the first point what the launch hands over (both accumulators at
    anything); afterwards the other regions' buffers, each accumulator at what the point before left in it, and the
    generator register at some state. -/
def PhiS2 (c : Dev nD) : (n : ℕ) → n ≤ cfg2.N → sProp 𝕄
  | 0, _ => Pipeline.ΦA spec2 c
  | n + 1, hn => iprop(iprop(others2 (F := F) c ∗ owns (c : Thread nD τ) scM2_0 fullShare (outsAt2 V c n hn).2.1 ∗ owns (c : Thread nD τ) scM2_1 fullShare (outsAt2 V c n hn).2.2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2_0 fullShare (outsAt2 V c n hn).2.1 ∗ owns (c : Thread nD τ) scM2_1 fullShare (outsAt2 V c n hn).2.2) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2_0 fullShare (outsAt2 V c (n - 1) (by omega)).2.1 ∗ owns (c : Thread nD τ) scM2_1 fullShare (outsAt2 V c (n - 1) (by omega)).2.2) ∗ (∃ r, prngReg c r)) := by
  cases n with
  | zero => exact absurd rfl hz
  | succ n => rfl

/-! ## The pipeline's proof data -/

/-- The proof data of pipeline 2 on core `c`: the arrays as the region finds them; after the body each operand's buffer
    at its block and the result's at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the operands' buffers hold their blocks; the closed forms say which case the point is in;
    the invariant hands the body the accumulators at what the point before left (at anything at the first point) and
    takes them back at this point's contents; away from the last point the result's buffer passes through untouched,
    at the last it is left at the stored result; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 25 := lt_of_lt_of_eq t.isLt (show cfg2.N = 25 from N_2)
  by_cases h0 : t.val % 25 = 0
  · have hz : t.val = 0 := by omega
    have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1)]
    rw [acc2_0_first V c t hz, acc2_1_first V c t hz]
    rw [PhiS2_castSucc V c t, PhiS2_zero V c _ _ hz, PhiA2_eq]
    iintro ⟨⟨⟨Hoth, HS0, HS1⟩, Hg⟩, Ho, ⟨%d0, H0⟩, ⟨%d1, H1⟩, ⟨%d2, H2⟩, ⟨%d3, H3⟩, ⟨%d4, H4⟩⟩
    iapply (sound_kernel2_A c Set.univ (grid2.coords t) hc0 hc1 _ _ _ _ _ _ _ _ _ _ _ _ _ _ (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [Hoth HS0 HS1 Hg]
    · isplitl [Hoth HS0 HS1]
      · isplitl [Hoth]; · iexact Hoth
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    have hc0 : ¬cond2_0 (grid2.coords t) := fun h => h0 ((hcond2_0 t).mp h)
    by_cases h1 : t.val % 25 = 24
    · have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4, out2_eq V c t]
      rw [acc2_0_later V c t hz, acc2_1_later V c t hz]
      rw [PhiS2_castSucc V c t, PhiS2_pos V c _ _ hz]
      iintro ⟨⟨⟨Hoth, HS0, HS1⟩, Hg⟩, Ho, ⟨%d0, H0⟩, ⟨%d1, H1⟩, ⟨%d2, H2⟩, ⟨%d3, H3⟩, ⟨%d4, H4⟩⟩
      iapply (sound_kernel2_C c Set.univ (grid2.coords t) hc0 hc1 _ _ _ _ _ _ _ _ _ _ _ _ _ _ (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [Hoth HS0 HS1 Hg]
      · isplitl [Hoth HS0 HS1]
        · isplitl [Hoth]; · iexact Hoth
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t hc1)]
      rw [acc2_0_later V c t hz, acc2_1_later V c t hz]
      rw [PhiS2_castSucc V c t, PhiS2_pos V c _ _ hz]
      iintro ⟨⟨⟨Hoth, HS0, HS1⟩, Hg⟩, Ho, ⟨%d0, H0⟩, ⟨%d1, H1⟩, ⟨%d2, H2⟩, ⟨%d3, H3⟩, ⟨%d4, H4⟩⟩
      iapply (sound_kernel2_B c Set.univ (grid2.coords t) hc0 hc1 _ _ _ _ _ _ _ _ _ _ _ _ _ _ (iblk2 V c 0 t) (iblk2 V c 1 t) (iblk2 V c 2 t) (iblk2 V c 3 t) _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [Hoth HS0 HS1 Hg]
      · isplitl [Hoth HS0 HS1]
        · isplitl [Hoth]; · iexact Hoth
          isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives that back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨Hoth, HS0, HS1⟩, Hg⟩
  isplitl [Hoth HS0 HS1]
  · isplitl [Hoth]; · iexact Hoth
    isplitl [HS0]; · iexists _; iexact HS0
    iexists _; iexact HS1
  iexact Hg

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

/-! ## The recurrences the accumulators satisfy -/

/-- After the first point: one step from zero. -/
theorem outsAt2_zero (c : Dev nD) (h0 : 0 < cfg2.N) :
    (outsAt2 V c 0 h0).2 = (k2_pay4 (iblk2 V c 1 ⟨0, h0⟩) (iblk2 V c 0 ⟨0, h0⟩) k2_pay1, k2_pay5 (iblk2 V c 1 ⟨0, h0⟩) k2_pay2) := rfl

/-- After a later point: one step from what the point before left. -/
theorem outsAt2_succ (c : Dev nD) (n : ℕ) (hn : n + 1 < cfg2.N) :
    (outsAt2 V c (n + 1) hn).2 = (k2_pay4 (iblk2 V c 1 ⟨n + 1, hn⟩) (iblk2 V c 0 ⟨n + 1, hn⟩) (outsAt2 V c n (Nat.lt_of_succ_lt hn)).2.1, k2_pay5 (iblk2 V c 1 ⟨n + 1, hn⟩) (outsAt2 V c n (Nat.lt_of_succ_lt hn)).2.2) := rfl

/-- What the last point stores as the result: the normalised and projected accumulators. -/
theorem outsAt2_last (c : Dev nD) (h : 24 < cfg2.N) :
    (outsAt2 V c 24 h).1 = k2_pay6 (outsAt2 V c 24 h).2.1 (outsAt2 V c 24 h).2.2 (iblk2 V c 2 ⟨24, h⟩) (iblk2 V c 3 ⟨24, h⟩) :=
  out2_eq V c ⟨24, h⟩

end Cert.KernelIdeal.Fr

end
-- ==== Proof.KI.Run.lean ====
/-
  The program's run. @main is three regions among stretches of host operations. Between two items a core holds every
  unscoped buffer at a known valuation; a region changes only its result array, to what its write-backs leave
  (the fold of the flushed blocks over the entry contents). Each region is a segment over these valuations, and the
  run of the segments gives: the program terminates without a fault, and every unscoped buffer ends at the last
  valuation. The frame — the argument arrays end as launched — is read off it.
-/
import proofs.«409070_j24455543783861_2_alg».proof.Proof.KI.Reg0
import proofs.«409070_j24455543783861_2_alg».proof.Proof.KI.Reg1
import proofs.«409070_j24455543783861_2_alg».proof.Proof.KI.Reg2
import proofs.«409070_j24455543783861_2_alg».proof.Proof.KI.RunCond

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, region by region -/

/-- The buffers as region 0 finds them: the launch contents after the first stretch of host operations. -/
abbrev E1 : (c : Dev nD) → (b : Ref sig .tc) → Buf (Elt F) ((c : Thread nD τ).loc b) := fun c b => V1 m c b
/-- At region 0's exit: its arrays at what the pipeline leaves, every other buffer as entered. -/
def X2 (c : Dev nD) : Valuation τ sig (Elt F) :=
  Pipeline.withArrays spec0 c (V1 m c) fun w => (dat0 (E1 m) c).arrAt w cfg0.N
/-- The unknowns of the valuation chain with region 0's result filled in. -/
def o2 : Outs (F := F) := fun _ r c => X2 m c r
/-- The buffers as region 1 finds them. -/
abbrev E5 : (c : Dev nD) → (b : Ref sig .tc) → Buf (Elt F) ((c : Thread nD τ).loc b) := fun c b => V5 m (o2 m) c b
def X6 (c : Dev nD) : Valuation τ sig (Elt F) :=
  Pipeline.withArrays spec1 c (V5 m (o2 m) c) fun w => (dat1 (E5 m) c).arrAt w cfg1.N
/-- … with region 1's result filled in too. -/
def o6 : Outs (F := F)
  | 6 => fun r c => X6 m c r
  | _ => fun r c => X2 m c r
/-- The buffers as region 2 finds them. -/
abbrev E9 : (c : Dev nD) → (b : Ref sig .tc) → Buf (Elt F) ((c : Thread nD τ).loc b) := fun c b => V9 m (o6 m) c b
def X10 (c : Dev nD) : Valuation τ sig (Elt F) :=
  Pipeline.withArrays spec2 c (V9 m (o6 m) c) fun w => (dat2 (E9 m) c).arrAt w cfg2.N
/-- What the three regions leave in their result arrays: the unknowns of the valuation chain, all filled in. -/
def outs : Outs (F := F)
  | 10 => fun r c => X10 m c r
  | 6 => fun r c => X6 m c r
  | _ => fun r c => X2 m c r

theorem outs_2 (c : Dev nD) : outs m 2 main_v4 c = (dat0 (E1 m) c).arrAt 2 cfg0.N := by
  show X2 m c main_v4 = _
  unfold X2; exact Pipeline.withArrays_arr spec0 launch0.win.arr_inj c _ _ 2
theorem outs_6 (c : Dev nD) : outs m 6 main_v47 c = (dat1 (E5 m) c).arrAt 2 cfg1.N := by
  show X6 m c main_v47 = _
  unfold X6; exact Pipeline.withArrays_arr spec1 launch1.win.arr_inj c _ _ 2
theorem outs_10 (c : Dev nD) : outs m 10 main_v92 c = (dat2 (E9 m) c).arrAt 4 cfg2.N := by
  show X10 m c main_v92 = _
  unfold X10; exact Pipeline.withArrays_arr spec2 launch2.win.arr_inj c _ _ 4

/-- The valuations before regions 1 and 2 read only the earlier regions' results. -/
theorem V5_outs (c : Dev nD) : V5 m (outs m) c = V5 m (o2 m) c := rfl
theorem V9_outs (c : Dev nD) : V9 m (outs m) c = V9 m (o6 m) c := rfl

/-! ## The proof data family and the thread state -/

def pdats : (p : Fin 3) → (c : Dev nD) → Dat τ (Elt F) Unit ℕ (UR sig nD τ) ℕ (cfgs p) c
  | ⟨0, _⟩ => fun c => dat0 (E1 m) c
  | ⟨1, _⟩ => fun c => dat1 (E5 m) c
  | ⟨2, _⟩ => fun c => dat2 (E9 m) c
  | ⟨_ + 3, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## Each region's arrays at its exit -/

theorem hF0 (c : Dev nD) (w : Fin cfg0.W) : (pdats m 0 c).arrAt w cfg0.N = V2 m (outs m) c (Pipeline.arrRef spec0 w) := by
  match w with
  | ⟨0, _⟩ => exact ((dat0 (E1 m) c).arrAt_in 0 rfl _).trans ((A_eq0 (E1 m) c 0).trans (V2_of m (outs m) c main_arg0 (by decide)).symm)
  | ⟨1, _⟩ => exact ((dat0 (E1 m) c).arrAt_in 1 rfl _).trans ((A_eq0 (E1 m) c 1).trans (V2_of m (outs m) c main_arg3 (by decide)).symm)
  | ⟨2, _⟩ => exact (outs_2 m c).symm.trans (by simp only [V2, Function.update_self])
theorem hrest0 (c : Dev nD) : ∀ b, b ∉ Finset.univ.image (Pipeline.arrRef spec0) → V2 m (outs m) c b = E1 m c b :=
  fun b hb => V2_of m (outs m) c b (by
    simp only [List.mem_singleton]; intro e; subst e
    exact hb (Finset.mem_image.mpr ⟨2, Finset.mem_univ _, rfl⟩))

theorem hF1 (c : Dev nD) (w : Fin cfg1.W) : (pdats m 1 c).arrAt w cfg1.N = V6 m (outs m) c (Pipeline.arrRef spec1 w) := by
  match w with
  | ⟨0, _⟩ => exact ((dat1 (E5 m) c).arrAt_in 0 rfl _).trans ((A_eq1 (E5 m) c 0).trans (V6_of m (outs m) c main_v46 (by decide)).symm)
  | ⟨1, _⟩ => exact ((dat1 (E5 m) c).arrAt_in 1 rfl _).trans ((A_eq1 (E5 m) c 1).trans (V6_of m (outs m) c main_arg5 (by decide)).symm)
  | ⟨2, _⟩ => exact (outs_6 m c).symm.trans (by simp only [V6, Function.update_self])
theorem hrest1 (c : Dev nD) : ∀ b, b ∉ Finset.univ.image (Pipeline.arrRef spec1) → V6 m (outs m) c b = E5 m c b :=
  fun b hb => V6_of m (outs m) c b (by
    simp only [List.mem_singleton]; intro e; subst e
    exact hb (Finset.mem_image.mpr ⟨2, Finset.mem_univ _, rfl⟩))

set_option maxHeartbeats 2000000 in
theorem hF2 (c : Dev nD) (w : Fin cfg2.W) : (pdats m 2 c).arrAt w cfg2.N = V10 m (outs m) c (Pipeline.arrRef spec2 w) := by
  match w with
  | ⟨0, _⟩ => exact ((dat2 (E9 m) c).arrAt_in 0 rfl _).trans ((A_eq2 (E9 m) c 0).trans (V10_of m (outs m) c main_v89 (by decide)).symm)
  | ⟨1, _⟩ => exact ((dat2 (E9 m) c).arrAt_in 1 rfl _).trans ((A_eq2 (E9 m) c 1).trans (V10_of m (outs m) c main_v90 (by decide)).symm)
  | ⟨2, _⟩ => exact ((dat2 (E9 m) c).arrAt_in 2 rfl _).trans ((A_eq2 (E9 m) c 2).trans (V10_of m (outs m) c main_arg7 (by decide)).symm)
  | ⟨3, _⟩ => exact ((dat2 (E9 m) c).arrAt_in 3 rfl _).trans ((A_eq2 (E9 m) c 3).trans (V10_of m (outs m) c main_v91 (by decide)).symm)
  | ⟨4, _⟩ => exact (outs_10 m c).symm.trans (by simp only [V10, Function.update_self])
theorem hrest2 (c : Dev nD) : ∀ b, b ∉ Finset.univ.image (Pipeline.arrRef spec2) → V10 m (outs m) c b = E9 m c b :=
  fun b hb => V10_of m (outs m) c b (by
    simp only [List.mem_singleton]; intro e; subst e
    exact hb (Finset.mem_image.mpr ⟨4, Finset.mem_univ _, rfl⟩))

/-! ## The regions as segments -/

set_option backward.isDefEq.respectTransparency.types false in
/-- Region 0 as a segment of @main: entered with every unscoped buffer at the valuation before it, left with them at the
    valuation after it. Its windows' arrays are split out of the unscoped buffers on entry and put back at what the
    write-backs leave on exit; the generator register goes into the region's invariant and comes back; the core owes
    nothing; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the valuation before it, left with them at the
    valuation after it. Its windows' arrays are split out of the unscoped buffers on entry and put back at what the
    write-backs leave on exit; the generator register goes into the region's invariant and comes back; the core owes
    nothing; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (V5 m (o2 m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main: entered with every unscoped buffer at the valuation before it, left with them at the
    valuation after it. Its windows' arrays are split out of the unscoped buffers on entry and put back at what the
    write-backs leave on exit; the generator register goes into the region's invariant and comes back; the core owes
    nothing; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (V9 m (o6 m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (E9 m) c)
    unfold Pipeline.ΦA
    iintro ⟨Hp, -, Hr⟩
    isplitl [Hr]; · iexact Hr
    iexact Hp
  hout c := by
    refine (hout2 (E9 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E9 m c) (fun b => V10 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any launch memory with zero counters, every weakly fair execution of @main terminates without a fault, and
    every unscoped buffer ends at the last valuation of the chain. -/
theorem run_vals : θ_run defs (onTc (τ := τ) (main (F := F))) ⟨m, fun _ => 0, ρ⟩ (fun r => ∀ c : Dev nD,
      ∀ b ∈ Pipeline.ucRefs τ sig, r.2.mem ((c : Thread nD τ).1, b) = V10 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hm : (bigSep Finset.univ (fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp))) : sProp 𝕄)
          ⊢ bigSep Finset.univ (fun c : Dev nD => R (F := F) c) :=
        bigSep_mono fun c _ => by
          show (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ R (F := F) c
          iintro ⟨-, HO, -, Hp, -⟩
          isplitl [Hp]; · iexists _; iexact Hp
          iexists ∅; iexact HO
      iintro ⟨H, -⟩
      imodintro
      iapply hm
      iexact H)
    (hE3 := fun c => by iintro ⟨-, HO⟩; iexact HO)
    (reg0 m) (fun c => .rfl) (fun c => .rfl)
    (reg1 m) (fun c => by rw [V5_outs m c]; exact .rfl) (fun c => .rfl)
    (reg2 m) (fun c => by rw [V9_outs m c]; exact .rfl) (fun c => .rfl)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program terminates without a fault and every argument array ends as launched — no stretch of host
    operations writes an argument and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (V10_main_arg0 m (outs m) c),
     (h c _ (mem_uc main_arg1 (by decide))).trans (V10_main_arg1 m (outs m) c),
     (h c _ (mem_uc main_arg2 (by decide))).trans (V10_main_arg2 m (outs m) c),
     (h c _ (mem_uc main_arg3 (by decide))).trans (V10_main_arg3 m (outs m) c),
     (h c _ (mem_uc main_arg4 (by decide))).trans (V10_main_arg4 m (outs m) c),
     (h c _ (mem_uc main_arg5 (by decide))).trans (V10_main_arg5 m (outs m) c),
     (h c _ (mem_uc main_arg6 (by decide))).trans (V10_main_arg6 m (outs m) c),
     (h c _ (mem_uc main_arg7 (by decide))).trans (V10_main_arg7 m (outs m) c),
     (h c _ (mem_uc main_arg8 (by decide))).trans (V10_main_arg8 m (outs m) c)⟩) (run_vals m ρ)

end Cert.KernelIdeal.Fr

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.Val.Mm.lean ====
/-
  The value of the program's two row-tiled linear projections, at the ideal values (a float is an extended real).

  Each of the two regions runs over 25 grid points. At point t the body reads rows 4000 t … 4000 t + 3999 of its
  left operand (a 100000-row matrix) and the whole weight matrix, and writes the product of the two blocks back as
  the same 4000 rows of the result; the second region first clamps the left block below at zero. At the ideal values a
  change of float format is the identity and a block product into a zero accumulator is the plain sum
  Σ_κ l (p, κ) · w (κ, q). Entry (p, q) of the block written at point t is therefore entry (4000 t + p, q) of the
  host's product of the whole left operand (clamped, in the second region) by the weight matrix: every written block
  is that one array read through the point's rectangle, and the 25 rectangles cover the result (row r lies in the
  block of point r / 4000). So the result array after the region is the host's product.
-/
import proofs.«409070_j24455543783861_2_alg».proof.Proof.KI.Reg0
import proofs.«409070_j24455543783861_2_alg».proof.Proof.KI.Reg1
import proofs.«409070_j24455543783861_2_alg».proof.Proof.Ref.Read
import proofs.«409070_j24455543783861_2_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- The zero offsets of a whole-block load or store, however spelt. -/
theorem hz : (![0, 0] : Fin 2 → Nat) = fun _ => 0 := funext fun a => by fin_cases a <;> rfl

/-- Two sums of products over one index set agree when their factors do. -/
theorem sum_mul_congr {K : Type} [Fintype K] (f f' g g' : K → EReal) (hf : ∀ k, f k = f' k) (hg : ∀ k, g k = g' k) :
    ∑ k, f k * g k = ∑ k, f' k * g' k :=
  Finset.sum_congr rfl fun k _ => by rw [hf k, hg k]

/-! ## Region 0 -/

/-- The block indices of region 0's three windows at a grid point: the left operand's and the result's blocks are
    block t of their arrays along the rows, the weight matrix's block is the whole matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- THE BODY'S RESULT AT (p, q): a change of format is the identity and the accumulator is zero, so the block product is
    the sum over κ of the left block's entry (p, κ) times the weight's entry (κ, q). -/
theorem lin0_pay_apply (x0 : Vec Ideal S4000x128 .f32) (x1 : Vec Ideal S128x32 .f32) (p : Fin 4000) (q : Fin 32) :
    k0_pay1 x0 x1 (ix2 p q) = ∑ κ : Fin 128, x0 (ix2 p κ) * x1 (ix2 κ q) := by
  unfold k0_pay1
  refine (Cert.LibDot.matmul_rows_apply dot_S4000x128_S128x32_S4000x32_1_0_0_1_n_n rfl rfl rfl rfl rfl rfl none
    (truncf .bf16 x0 bitsLt_bf16_f32) (truncf .bf16 x1 bitsLt_bf16_f32) (constant S4000x32 .f32 0x00000000#32) p q).trans ?_
  rw [constant_apply, Ideal.ofBits_zero_f32, zero_add]
  rfl

/-- Entry (p, κ) of the left operand's block at point t is entry (4000 t + p, κ) of the left operand. -/
theorem blk0_0_apply (c : Dev nD) (t : Fin cfg0.N) (p : Fin 4000) (κ : Fin 128) (r : Fin 100000)
    (hr : r.val = t.val * 4000 + p.val) :
    (iblk0 V c 0 t : Vec Ideal S4000x128 .f32) (ix2 p κ) = (V c main_arg0 : S100000x128.Idx → EReal) (ix2 r κ) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 4000 + 1 * p.val = r.val; omega
  | ⟨1, _⟩ => show win0_0.index t (1 : Fin 2) * 128 + 1 * κ.val = κ.val; omega

/-- The weight matrix's block at every point is the weight matrix. -/
theorem blk0_1_apply (c : Dev nD) (t : Fin cfg0.N) (κ : Fin 128) (q : Fin 32) :
    (iblk0 V c 1 t : Vec Ideal S128x32 .f32) (ix2 κ q) = (V c main_arg3 : S128x32.Idx → EReal) (ix2 κ q) := by
  obtain ⟨-, -, e0, e1, -⟩ := idx0 t
  unfold iblk0
  rw [View.read_apply]
  show V c main_arg3 _ = V c main_arg3 _
  congr 1
  funext a
  apply Fin.ext
  match a with
  | ⟨0, _⟩ => show win0_1.index t (0 : Fin 2) * 128 + 1 * κ.val = κ.val; omega
  | ⟨1, _⟩ => show win0_1.index t (1 : Fin 2) * 32 + 1 * q.val = q.val; omega

/-- A block of 4000 rows that agrees entry by entry with rows 4000 t … 4000 t + 3999 of an array is that array read
    through point t's rectangle of the result. -/
theorem cut0_eq_read (X : Vec Ideal S4000x32 .f32) (Gf : S100000x32.Idx → EReal) (t : Fin cfg0.N)
    (h : ∀ (p : Fin 4000) (q : Fin 32) (r : Fin 100000), r.val = t.val * 4000 + p.val → X (ix2 p q) = Gf (ix2 r q)) :
    (cfg0.win 2).cut (grid0.coords t) X = ((cfg0.win 2).blk t).view.read (Elt Ideal) Gf := by
  obtain ⟨-, -, -, -, e0, e1⟩ := idx0 t
  have ht : t.val < 25 := lt_of_lt_of_eq t.isLt N_0
  funext j
  have hj0 : (j 0).val < 4000 := (j 0).isLt
  have hj1 : (j 1).val < 32 := (j 1).isLt
  rw [View.read_apply]
  refine Eq.trans ?_ ((h ⟨(j 0).val, hj0⟩ ⟨(j 1).val, hj1⟩ ⟨t.val * 4000 + (j 0).val, by omega⟩ rfl).trans ?_)
  · show X _ = X _
    congr 1
    funext a
    apply Fin.ext
    match a with
    | ⟨0, _⟩ => rfl
    | ⟨1, _⟩ => rfl
  · show Gf _ = Gf _
    congr 1
    funext a
    apply Fin.ext
    match a with
    | ⟨0, _⟩ => show t.val * 4000 + (j 0).val = win0_2.index t (0 : Fin 2) * 4000 + 1 * (j 0).val; omega
    | ⟨1, _⟩ => show (j 1).val = win0_2.index t (1 : Fin 2) * 32 + 1 * (j 1).val; omega

/-- An index of the result is in point t's block iff each coordinate is in the block's range on its axis. -/
theorem mem_blk0 (t : Fin cfg0.N) (i : S100000x32.Idx) :
    i ∈ ((cfg0.win 2).blk t).view.set ↔ ∀ a : Fin 2, win0_2.index t a * S4000x32.size a ≤ (i a).val ∧ (i a).val < win0_2.index t a * S4000x32.size a + S4000x32.size a := by
  show i ∈ ((View.whole main_v4).slice (win0_2.rect t)).set ↔ _
  rw [View.set_slice_whole, Rect.mem_set_unit]
  exact Iff.rfl

/-- The blocks cover the result: row r lies in the block of point r / 4000, which writes it back. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 25 := N_0
  have ht : (i 0).val / 4000 < cfg0.N := by rw [hN]; omega
  obtain ⟨-, -, -, -, e0, e1⟩ := idx0 ⟨(i 0).val / 4000, ht⟩
  refine ⟨⟨(i 0).val / 4000, ht⟩, flush0_2 _, ?_⟩
  rw [mem_blk0]
  intro a
  match a with
  | ⟨0, _⟩ =>
    show win0_2.index ⟨(i 0).val / 4000, ht⟩ (0 : Fin 2) * 4000 ≤ (i 0).val ∧ (i 0).val < win0_2.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_2.index ⟨(i 0).val / 4000, ht⟩ (1 : Fin 2) * 32 ≤ (i 1).val ∧ (i 1).val < win0_2.index ⟨(i 0).val / 4000, ht⟩ (1 : Fin 2) * 32 + 32
    rw [e1]; omega

/-- The host's product of a 100000 × 128 matrix by the 128 × 32 weight matrix, read at (r, q). -/
theorem dot0_apply (a : FVec Ideal S100000x128 .f32) (w : FVec Ideal S128x32 .f32) (r : Fin 100000) (q : Fin 32) :
    Host.dotGeneral (F := Ideal) Cert.ReferenceIdeal.dot_S100000x128_S128x32_S100000x32_1_0_0_1_n_n none a w (ix2 r q)
      = ∑ κ : Fin 128, a (ix2 r κ) * w (ix2 κ q) :=
  Cert.LibDot.dot_rows_apply Cert.ReferenceIdeal.dot_S100000x128_S128x32_S100000x32_1_0_0_1_n_n rfl rfl rfl rfl rfl rfl none a w r q

/-- The whole product of region 0: the left operand times the weight matrix, as the host forms it. -/
abbrev prod0 (c : Dev nD) : S100000x32.Idx → EReal :=
  Host.dotGeneral (F := Ideal) (φ₁ := .f32) (φ₂ := .f32) Cert.ReferenceIdeal.dot_S100000x128_S128x32_S100000x32_1_0_0_1_n_n none (V c main_arg0) (V c main_arg3)

/-- WHAT POINT t WRITES BACK is the whole product read through the point's rectangle. -/
theorem flushed0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x32) hz]
  refine cut0_eq_read _ _ t fun p q r hr => ?_
  refine (lin0_pay_apply (iblk0 V c 0 t) (iblk0 V c 1 t) p q).trans ((dot0_apply (V c main_arg0) (V c main_arg3) r q).trans ?_).symm
  exact sum_mul_congr _ _ _ _ (fun κ => (blk0_0_apply V c t p κ r hr).symm) (fun κ => (blk0_1_apply V c t κ q).symm)

/-- The result array of region 0 after its 25 points is the whole product. -/
theorem arr0_prod (c : Dev nD) : (dat0 V c).arrAt 2 cfg0.N = prod0 V c :=
  (dat0 V c).arrAt_eq_of_cover 2 (prod0 V c) (fun t _ => flushed0_eq V c t) cover0

/-! ## Region 1 -/

/-- The block indices of region 1's three windows at a grid point: the left operand's and the result's blocks are
    block t of their arrays along the rows, the weight matrix's block is the whole matrix. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- THE BODY'S RESULT AT (p, q): a change of format is the identity and the accumulator is zero, so the block product is
    the sum over κ of the left block's entry (p, κ), clamped below at zero, times the weight's entry (κ, q). -/
theorem lin1_pay_apply (x0 : Vec Ideal S4000x32 .f32) (x1 : Vec Ideal S32x32 .f32) (p : Fin 4000) (q : Fin 32) :
    k1_pay1 x0 x1 (ix2 p q) = ∑ κ : Fin 32, max (x0 (ix2 p κ)) (Ideal.ofBits .f32 0x00000000#32) * x1 (ix2 κ q) := by
  unfold k1_pay1
  refine (Cert.LibDot.matmul_rows_apply dot_S4000x32_S32x32_S4000x32_1_0_0_1_n_n rfl rfl rfl rfl rfl rfl none
    (truncf .bf16 (maximumf (shapeCast S4000x32 x0 shapeCasts_S4000x32_S4000x32) (broadcast S4000x32 (Scalar.ofBits .f32 0x00000000#32))) bitsLt_bf16_f32) (truncf .bf16 x1 bitsLt_bf16_f32) (constant S4000x32 .f32 0x00000000#32) p q).trans ?_
  conv_lhs => rw [constant_apply, Ideal.ofBits_zero_f32, zero_add, shapeCast_self]
  rfl

/-- Entry (p, κ) of the left operand's block at point t is entry (4000 t + p, κ) of the left operand. -/
theorem blk1_0_apply (c : Dev nD) (t : Fin cfg1.N) (p : Fin 4000) (κ : Fin 32) (r : Fin 100000)
    (hr : r.val = t.val * 4000 + p.val) :
    (iblk1 V c 0 t : Vec Ideal S4000x32 .f32) (ix2 p κ) = (V c main_v46 : S100000x32.Idx → EReal) (ix2 r κ) := by
  obtain ⟨e0, e1, -⟩ := idx1 t
  unfold iblk1
  rw [View.read_apply]
  show V c main_v46 _ = V c main_v46 _
  congr 1
  funext a
  apply Fin.ext
  match a with
  | ⟨0, _⟩ => show win1_0.index t (0 : Fin 2) * 4000 + 1 * p.val = r.val; omega
  | ⟨1, _⟩ => show win1_0.index t (1 : Fin 2) * 32 + 1 * κ.val = κ.val; omega

/-- The weight matrix's block at every point is the weight matrix. -/
theorem blk1_1_apply (c : Dev nD) (t : Fin cfg1.N) (κ : Fin 32) (q : Fin 32) :
    (iblk1 V c 1 t : Vec Ideal S32x32 .f32) (ix2 κ q) = (V c main_arg5 : S32x32.Idx → EReal) (ix2 κ q) := by
  obtain ⟨-, -, e0, e1, -⟩ := idx1 t
  unfold iblk1
  rw [View.read_apply]
  show V c main_arg5 _ = V c main_arg5 _
  congr 1
  funext a
  apply Fin.ext
  match a with
  | ⟨0, _⟩ => show win1_1.index t (0 : Fin 2) * 32 + 1 * κ.val = κ.val; omega
  | ⟨1, _⟩ => show win1_1.index t (1 : Fin 2) * 32 + 1 * q.val = q.val; omega

/-- A block of 4000 rows that agrees entry by entry with rows 4000 t … 4000 t + 3999 of an array is that array read
    through point t's rectangle of the result. -/
theorem cut1_eq_read (X : Vec Ideal S4000x32 .f32) (Gf : S100000x32.Idx → EReal) (t : Fin cfg1.N)
    (h : ∀ (p : Fin 4000) (q : Fin 32) (r : Fin 100000), r.val = t.val * 4000 + p.val → X (ix2 p q) = Gf (ix2 r q)) :
    (cfg1.win 2).cut (grid1.coords t) X = ((cfg1.win 2).blk t).view.read (Elt Ideal) Gf := by
  obtain ⟨-, -, -, -, e0, e1⟩ := idx1 t
  have ht : t.val < 25 := lt_of_lt_of_eq t.isLt N_1
  funext j
  have hj0 : (j 0).val < 4000 := (j 0).isLt
  have hj1 : (j 1).val < 32 := (j 1).isLt
  rw [View.read_apply]
  refine Eq.trans ?_ ((h ⟨(j 0).val, hj0⟩ ⟨(j 1).val, hj1⟩ ⟨t.val * 4000 + (j 0).val, by omega⟩ rfl).trans ?_)
  · show X _ = X _
    congr 1
    funext a
    apply Fin.ext
    match a with
    | ⟨0, _⟩ => rfl
    | ⟨1, _⟩ => rfl
  · show Gf _ = Gf _
    congr 1
    funext a
    apply Fin.ext
    match a with
    | ⟨0, _⟩ => show t.val * 4000 + (j 0).val = win1_2.index t (0 : Fin 2) * 4000 + 1 * (j 0).val; omega
    | ⟨1, _⟩ => show (j 1).val = win1_2.index t (1 : Fin 2) * 32 + 1 * (j 1).val; omega

/-- An index of the result is in point t's block iff each coordinate is in the block's range on its axis. -/
theorem mem_blk1 (t : Fin cfg1.N) (i : S100000x32.Idx) :
    i ∈ ((cfg1.win 2).blk t).view.set ↔ ∀ a : Fin 2, win1_2.index t a * S4000x32.size a ≤ (i a).val ∧ (i a).val < win1_2.index t a * S4000x32.size a + S4000x32.size a := by
  show i ∈ ((View.whole main_v47).slice (win1_2.rect t)).set ↔ _
  rw [View.set_slice_whole, Rect.mem_set_unit]
  exact Iff.rfl

/-- The blocks cover the result: row r lies in the block of point r / 4000, which writes it back. -/
theorem cover1 (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 25 := N_1
  have ht : (i 0).val / 4000 < cfg1.N := by rw [hN]; omega
  obtain ⟨-, -, -, -, e0, e1⟩ := idx1 ⟨(i 0).val / 4000, ht⟩
  refine ⟨⟨(i 0).val / 4000, ht⟩, flush1_2 _, ?_⟩
  rw [mem_blk1]
  intro a
  match a with
  | ⟨0, _⟩ =>
    show win1_2.index ⟨(i 0).val / 4000, ht⟩ (0 : Fin 2) * 4000 ≤ (i 0).val ∧ (i 0).val < win1_2.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_2.index ⟨(i 0).val / 4000, ht⟩ (1 : Fin 2) * 32 ≤ (i 1).val ∧ (i 1).val < win1_2.index ⟨(i 0).val / 4000, ht⟩ (1 : Fin 2) * 32 + 32
    rw [e1]; omega

/-- The host's product of a 100000 × 32 matrix by the 32 × 32 weight matrix, read at (r, q). -/
theorem dot1_apply (a : FVec Ideal S100000x32 .f32) (w : FVec Ideal S32x32 .f32) (r : Fin 100000) (q : Fin 32) :
    Host.dotGeneral (F := Ideal) Cert.ReferenceIdeal.dot_S100000x32_S32x32_S100000x32_1_0_0_1_n_n none a w (ix2 r q)
      = ∑ κ : Fin 32, a (ix2 r κ) * w (ix2 κ q) :=
  Cert.LibDot.dot_rows_apply Cert.ReferenceIdeal.dot_S100000x32_S32x32_S100000x32_1_0_0_1_n_n rfl rfl rfl rfl rfl rfl none a w r q

/-- The whole product of region 1: the left operand clamped below by an array z, times the weight matrix, as the host
    forms it. -/
abbrev prod1 (z : FVec Ideal S100000x32 .f32) (c : Dev nD) : S100000x32.Idx → EReal :=
  Host.dotGeneral (F := Ideal) (φ₁ := .f32) (φ₂ := .f32) Cert.ReferenceIdeal.dot_S100000x32_S32x32_S100000x32_1_0_0_1_n_n none
    (maximumf (V c main_v46) z) (V c main_arg5)

/-- WHAT POINT t WRITES BACK is the whole product read through the point's rectangle, when the clamping array is zero
    everywhere. -/
theorem flushed1_eq (z : FVec Ideal S100000x32 .f32) (hz0 : ∀ i, z i = Ideal.ofBits .f32 0x00000000#32) (c : Dev nD) (t : Fin cfg1.N) :
    (dat1 V c).flushed 2 t = ((cfg1.win 2).blk t).view.read (Elt Ideal) (prod1 V z c) := by
  show (cfg1.win 2).cut (grid1.coords t) ((dat1 V c).after 2 t) = _
  rw [after1_2]
  unfold out1_2
  rw [View.canon_unit_zero hz]
  simp only [View.ld_unit_zero (S := S4000x32) hz, View.ld_unit_zero (S := S32x32) hz]
  refine cut1_eq_read _ _ t fun p q r hr => ?_
  refine (lin1_pay_apply (iblk1 V c 0 t) (iblk1 V c 1 t) p q).trans ((dot1_apply (maximumf (V c main_v46) z) (V c main_arg5) r q).trans ?_).symm
  exact sum_mul_congr _ _ _ _
    (fun κ => (maximumf_apply (V c main_v46) z (ix2 r κ)).trans (congrArg₂ (max : EReal → EReal → EReal) (blk1_0_apply V c t p κ r hr).symm (hz0 _)))
    (fun κ => (blk1_1_apply V c t κ q).symm)

/-- The result array of region 1 after its 25 points is the whole product. -/
theorem arr1_prod (z : FVec Ideal S100000x32 .f32) (hz0 : ∀ i, z i = Ideal.ofBits .f32 0x00000000#32) (c : Dev nD) :
    (dat1 V c).arrAt 2 cfg1.N = prod1 V z c :=
  (dat1 V c).arrAt_eq_of_cover 2 (prod1 V z c) (fun t _ => flushed1_eq V z hz0 c t) cover1

/-! ## The two arrays as the reference's stages -/

/-- REGION 0'S RESULT is the reference's first product stage of the two arguments. -/
theorem arr0_eq (c : Dev nD) :
    (dat0 (F := Ideal) V c).arrAt 2 cfg0.N = Cert.ReferenceIdeal.Read.val_main_v4 (F := Ideal) (V c main_arg0) (V c main_arg3) :=
  arr0_prod V c

/-- The reference's zero array of its clamp reads the zero word everywhere. -/
theorem relu_zero_apply (i : S100000x32.Idx) :
    Cert.ReferenceIdeal.Read.val_main_call1_v0 (F := Ideal) i = Ideal.ofBits .f32 0x00000000#32 :=
  (Cert.ReferenceIdeal.Read.val_main_call1_v0_apply (F := Ideal) i).trans (Cert.ReferenceIdeal.Read.val_main_call1_cst_apply (F := Ideal) _)

/-- REGION 1'S RESULT is the host's product of the clamped left operand by the weight matrix. -/
theorem arr1_eq (c : Dev nD) :
    (dat1 (F := Ideal) V c).arrAt 2 cfg1.N
      = Host.dotGeneral (F := Ideal) (φ₁ := .f32) (φ₂ := .f32) Cert.ReferenceIdeal.dot_S100000x32_S32x32_S100000x32_1_0_0_1_n_n none
          (maximumf (V c main_v46) (Cert.ReferenceIdeal.Read.val_main_call1_v0 (F := Ideal))) (V c main_arg5) :=
  arr1_prod V (Cert.ReferenceIdeal.Read.val_main_call1_v0 (F := Ideal)) relu_zero_apply c

end Cert.KernelIdeal.Val

end
-- ==== Proof.Val.Chain.lean ====
import proofs.«409070_j24455543783861_2_alg».proof.Proof.Gen.KernelIdeal.Regions
import proofs.«409070_j24455543783861_2_alg».proof.Proof.Ref.Read
import Idealize.ShloMosaic.Lib.StableHlo.Run
import Idealize.ShloMosaic.Lib.ValueIdx

/-!
# The host chains the program and the reference share

Between its matrix products the graph convolution is the same message passing in both programs: self loops are
appended to the edge list, the degree of every node is the scatter-sum of ones over the target row, its inverse
square root (zero where the degree is zero) is gathered at both ends of every edge and multiplied into the edge's
weight, the features are gathered at the source of every edge, scaled by that weight, scatter-summed at the target,
and the bias is added. Here each such chain is ONE function of the matrix it is applied to (`chain46`, `chain90`),
spelt over the reference's stages; the reference's stage after the chain is that function of its product
(`ref46`, `ref90`), and what the program's host operations leave in the chain's last buffer is that function of
what the preceding kernel region left (`ker46`, `ker89`). The integer index vectors depend on the edge list alone.
-/

set_option maxRecDepth 8192

noncomputable section

namespace Cert.KernelIdeal.Val

open Cert.KernelIdeal Cert.KernelIdeal.Gen Idealize.ShloMosaic Idealize.ShloMosaic.TcCoe Idealize.ShloMosaic.StableHlo

/-! ## The chains as functions of the matrix -/

section Generic

variable {F : FTy → Type} [FloatOps F]

/-- The first layer's message passing at any float family: gather the rows of `h` at the edges' sources, scale by the
    edges' weights, scatter-sum at the targets into zeros, add the bias row. -/
def chain46G (h : FVec F S100000x32 .f32) (x1 : IVec S2x1600000 32) (x4 : FVec F S32 .f32) : FVec F S100000x32 .f32 :=
  addf (Host.scatterAdd Cert.ReferenceIdeal.scatter_S100000x32_S1700000x1_S1700000x32_1_0_0_1 (Cert.ReferenceIdeal.Read.val_main_v41 (F := F)) (Cert.ReferenceIdeal.Read.val_main_v42 (F := F) x1)
    (mulf (Host.gather Cert.ReferenceIdeal.gather_S100000x32_S1700000x1_S1700000x32_1_0_n_n_0_1_132 h (Cert.ReferenceIdeal.Read.val_main_v36 (F := F) x1)) (Cert.ReferenceIdeal.Read.val_main_v39 (F := F) x1))) (Cert.ReferenceIdeal.Read.val_main_v45 (F := F) x4)

/-- The second layer's message passing at any float family (the same chain over the second copy of the index and
    weight vectors). -/
def chain90G (h : FVec F S100000x32 .f32) (x1 : IVec S2x1600000 32) (x6 : FVec F S32 .f32) : FVec F S100000x32 .f32 :=
  addf (Host.scatterAdd Cert.ReferenceIdeal.scatter_S100000x32_S1700000x1_S1700000x32_1_0_0_1 (Cert.ReferenceIdeal.Read.val_main_v85 (F := F)) (Cert.ReferenceIdeal.Read.val_main_v86 (F := F) x1)
    (mulf (Host.gather Cert.ReferenceIdeal.gather_S100000x32_S1700000x1_S1700000x32_1_0_n_n_0_1_132 h (Cert.ReferenceIdeal.Read.val_main_v80 (F := F) x1)) (Cert.ReferenceIdeal.Read.val_main_v83 (F := F) x1))) (Cert.ReferenceIdeal.Read.val_main_v89 (F := F) x6)

end Generic

/-- The first layer's message passing: gather the rows of `h` at the edges' sources, scale by the edges' weights,
    scatter-sum at the targets into zeros, add the bias row. -/
def chain46 (h : FVec Ideal S100000x32 .f32) (x1 : IVec S2x1600000 32) (x4 : FVec Ideal S32 .f32) : FVec Ideal S100000x32 .f32 :=
  addf (Host.scatterAdd Cert.ReferenceIdeal.scatter_S100000x32_S1700000x1_S1700000x32_1_0_0_1 (Cert.ReferenceIdeal.Read.val_main_v41 (F := Ideal)) (Cert.ReferenceIdeal.Read.val_main_v42 (F := Ideal) x1)
    (mulf (Host.gather Cert.ReferenceIdeal.gather_S100000x32_S1700000x1_S1700000x32_1_0_n_n_0_1_132 h (Cert.ReferenceIdeal.Read.val_main_v36 (F := Ideal) x1)) (Cert.ReferenceIdeal.Read.val_main_v39 (F := Ideal) x1))) (Cert.ReferenceIdeal.Read.val_main_v45 (F := Ideal) x4)

/-- The second layer's message passing. -/
def chain90 (h : FVec Ideal S100000x32 .f32) (x1 : IVec S2x1600000 32) (x6 : FVec Ideal S32 .f32) : FVec Ideal S100000x32 .f32 :=
  addf (Host.scatterAdd Cert.ReferenceIdeal.scatter_S100000x32_S1700000x1_S1700000x32_1_0_0_1 (Cert.ReferenceIdeal.Read.val_main_v85 (F := Ideal)) (Cert.ReferenceIdeal.Read.val_main_v86 (F := Ideal) x1)
    (mulf (Host.gather Cert.ReferenceIdeal.gather_S100000x32_S1700000x1_S1700000x32_1_0_n_n_0_1_132 h (Cert.ReferenceIdeal.Read.val_main_v80 (F := Ideal) x1)) (Cert.ReferenceIdeal.Read.val_main_v83 (F := Ideal) x1))) (Cert.ReferenceIdeal.Read.val_main_v89 (F := Ideal) x6)

theorem chain46G_ideal (h : FVec Ideal S100000x32 .f32) (x1 : IVec S2x1600000 32) (x4 : FVec Ideal S32 .f32) :
    chain46G (F := Ideal) h x1 x4 = chain46 h x1 x4 := rfl
theorem chain90G_ideal (h : FVec Ideal S100000x32 .f32) (x1 : IVec S2x1600000 32) (x6 : FVec Ideal S32 .f32) :
    chain90G (F := Ideal) h x1 x6 = chain90 h x1 x6 := rfl

/-! ## The reference's stages are the chains of its products -/

/-- The reference's first layer before the rectifier is the chain of its first product. -/
theorem ref46 (x0 : FVec Ideal Cert.ReferenceIdeal.S100000x128 .f32) (x1 : IVec S2x1600000 32) (x3 : FVec Ideal Cert.ReferenceIdeal.S128x32 .f32) (x4 : FVec Ideal S32 .f32) :
    Cert.ReferenceIdeal.Read.val_main_v46 (F := Ideal) x0 x1 x3 x4 = chain46 (Cert.ReferenceIdeal.Read.val_main_v4 (F := Ideal) x0 x3) x1 x4 := by
  unfold Cert.ReferenceIdeal.Read.val_main_v46 Cert.ReferenceIdeal.Read.val_main_v43 Cert.ReferenceIdeal.Read.val_main_v40 Cert.ReferenceIdeal.Read.val_main_v37 chain46; rfl

/-- The reference's second layer is the chain of its second product. -/
theorem ref90 (x0 : FVec Ideal Cert.ReferenceIdeal.S100000x128 .f32) (x1 : IVec S2x1600000 32) (x3 : FVec Ideal Cert.ReferenceIdeal.S128x32 .f32) (x4 : FVec Ideal S32 .f32)
    (x5 : FVec Ideal Cert.ReferenceIdeal.S32x32 .f32) (x6 : FVec Ideal S32 .f32) :
    Cert.ReferenceIdeal.Read.val_main_v90 (F := Ideal) x0 x1 x3 x4 x5 x6 = chain90 (Cert.ReferenceIdeal.Read.val_main_v48 (F := Ideal) x0 x1 x3 x4 x5) x1 x6 := by
  unfold Cert.ReferenceIdeal.Read.val_main_v90 Cert.ReferenceIdeal.Read.val_main_v87 Cert.ReferenceIdeal.Read.val_main_v84 Cert.ReferenceIdeal.Read.val_main_v81 chain90; rfl

/-! ## What the program's host operations leave -/

section Kernel

variable {F : FTy → Type} [FloatOps F]
variable (m : (ℓ : Loc nD τ sig) → Buf (Elt F) ℓ) (outs : Gen.Outs (F := F)) (c : Dev nD)

/-! ### The arguments are as launched when each region is entered (no host operation writes an argument) -/

theorem V1_arg0 : V1 m c main_arg0 = m ((c.tc : Thread nD τ).loc main_arg0) :=
  (V1_of m c main_arg0 (by decide)).trans rfl
theorem V1_arg3 : V1 m c main_arg3 = m ((c.tc : Thread nD τ).loc main_arg3) :=
  (V1_of m c main_arg3 (by decide)).trans rfl
theorem V2_arg4 : V2 m outs c main_arg4 = m ((c.tc : Thread nD τ).loc main_arg4) :=
  (V2_of m outs c main_arg4 (by decide)).trans <| (V1_of m c main_arg4 (by decide)).trans rfl
theorem V5_arg5 : V5 m outs c main_arg5 = m ((c.tc : Thread nD τ).loc main_arg5) :=
  (V5_of m outs c main_arg5 (by decide)).trans <| (V4_of m outs c main_arg5 (by decide)).trans <| (V3_of m outs c main_arg5 (by decide)).trans <| (V2_of m outs c main_arg5 (by decide)).trans <| (V1_of m c main_arg5 (by decide)).trans rfl
theorem V6_arg2 : V6 m outs c main_arg2 = m ((c.tc : Thread nD τ).loc main_arg2) :=
  (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide)).trans rfl
theorem V6_arg6 : V6 m outs c main_arg6 = m ((c.tc : Thread nD τ).loc main_arg6) :=
  (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide)).trans rfl
theorem V6_arg8 : V6 m outs c main_arg8 = m ((c.tc : Thread nD τ).loc main_arg8) :=
  (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| (V1_of m c main_arg8 (by decide)).trans rfl
theorem V9_arg7 : V9 m outs c main_arg7 = m ((c.tc : Thread nD τ).loc main_arg7) :=
  (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide)).trans rfl

/-! ### The two reshapes of arguments before the last region -/

/-- The graph-assignment vector as a column. -/
theorem ker_v90 : V9 m outs c main_v90 = shapeCast S100000x1 (m ((c.tc : Thread nD τ).loc main_arg2)) shapeCasts_S100000_S100000x1 := by
  dsimp only [V9, hostOps2_2]
  after_results_simp <;> rw [V6_arg2 m outs c] <;> rfl

/-- The last bias as a row. -/
theorem ker_v91 : V9 m outs c main_v91 = shapeCast S1x32 (m ((c.tc : Thread nD τ).loc main_arg8)) shapeCasts_S32_S1x32 := by
  dsimp only [V9, hostOps2_2]
  after_results_simp <;> rw [V6_arg8 m outs c] <;> rfl

/-! ### The edge list's two rows, and what the regions leave

The only buffers the layers' host operations read that they do not write themselves: the two rows of the edge list
(sliced and flattened before region 0, written by nothing after), the regions' outputs, and the bias arguments. -/

theorem e1_1 : V1 m c main_v1 = Cert.ReferenceIdeal.Read.val_main_v1 (F := F) (m ((c.tc : Thread nD τ).loc main_arg1)) := by
  dsimp only [V1, V0, hostOps0]
  after_results_simp <;> rfl
theorem e1_3 : V1 m c main_v3 = Cert.ReferenceIdeal.Read.val_main_v3 (F := F) (m ((c.tc : Thread nD τ).loc main_arg1)) := by
  dsimp only [V1, V0, hostOps0]
  after_results_simp <;> rfl
theorem e2_1 : V2 m outs c main_v1 = Cert.ReferenceIdeal.Read.val_main_v1 (F := F) (m ((c.tc : Thread nD τ).loc main_arg1)) :=
  (V2_of m outs c main_v1 (by decide)).trans <| e1_1 m c
theorem e2_3 : V2 m outs c main_v3 = Cert.ReferenceIdeal.Read.val_main_v3 (F := F) (m ((c.tc : Thread nD τ).loc main_arg1)) :=
  (V2_of m outs c main_v3 (by decide)).trans <| e1_3 m c
/-- What region 0 leaves in its output is what the first layer's host operations read there. -/
theorem e2_4 : V2 m outs c main_v4 = outs 2 main_v4 c := by
  simp only [V2, Function.update_self]
theorem e6_1 : V6 m outs c main_v1 = Cert.ReferenceIdeal.Read.val_main_v1 (F := F) (m ((c.tc : Thread nD τ).loc main_arg1)) :=
  (V6_of m outs c main_v1 (by decide)).trans <| (V5_of m outs c main_v1 (by decide)).trans <| (V4_of m outs c main_v1 (by decide)).trans <| (V3_of m outs c main_v1 (by decide)).trans <| e2_1 m outs c
theorem e6_3 : V6 m outs c main_v3 = Cert.ReferenceIdeal.Read.val_main_v3 (F := F) (m ((c.tc : Thread nD τ).loc main_arg1)) :=
  (V6_of m outs c main_v3 (by decide)).trans <| (V5_of m outs c main_v3 (by decide)).trans <| (V4_of m outs c main_v3 (by decide)).trans <| (V3_of m outs c main_v3 (by decide)).trans <| e2_3 m outs c
/-- What region 1 leaves in its output is what the second layer's host operations read there. -/
theorem e6_47 : V6 m outs c main_v47 = outs 6 main_v47 c := by
  simp only [V6, Function.update_self]

/-! ### The first layer: self loops, degrees and their inverse square roots

After the stretch that appends the self loops and sums the degrees, each buffer the rest of the layer reads is the
reference's stage of the same name at the launched edge list. -/

theorem e3_6 : V3 m outs c main_v6 = Cert.ReferenceIdeal.Read.val_main_v6 (F := F) (m ((c.tc : Thread nD τ).loc main_arg1)) := by
  dsimp only [V3, hostOps1]
  after_results <;> rw [e2_1 m outs c] <;> rfl
theorem e3_7 : V3 m outs c main_v7 = Cert.ReferenceIdeal.Read.val_main_v7 (F := F) (m ((c.tc : Thread nD τ).loc main_arg1)) := by
  dsimp only [V3, hostOps1]
  after_results <;> rw [e2_3 m outs c] <;> rfl
theorem e3_13 : V3 m outs c main_v13 = Cert.ReferenceIdeal.Read.val_main_v13 (F := F) (m ((c.tc : Thread nD τ).loc main_arg1)) := by
  dsimp only [V3, hostOps1]
  after_results <;> rw [e2_3 m outs c] <;> rfl
theorem e3_14 : V3 m outs c main_v14 = Cert.ReferenceIdeal.Read.val_main_v14 (F := F) (m ((c.tc : Thread nD τ).loc main_arg1)) := by
  dsimp only [V3, hostOps1]
  after_results <;> rw [e2_3 m outs c] <;> rfl
theorem e3_cst2 : V3 m outs c main_cst_2 = Cert.ReferenceIdeal.Read.val_main_cst_2 (F := F) := by
  dsimp only [V3, hostOps1]
  after_results <;> rfl
theorem e3_4 : V3 m outs c main_v4 = outs 2 main_v4 c :=
  (V3_of m outs c main_v4 (by decide)).trans <| e2_4 m outs c
theorem V3_arg4 : V3 m outs c main_arg4 = m ((c.tc : Thread nD τ).loc main_arg4) :=
  (V3_of m outs c main_arg4 (by decide)).trans <| (V2_of m outs c main_arg4 (by decide)).trans <| (V1_of m c main_arg4 (by decide)).trans rfl

/-- After the first layer's host operations `main_v46` holds the chain of what region 0 left in `main_v4`: the
    operations' composed term over the buffers above is the chain's stages unfolded. -/
theorem ker46G : V5 m outs c main_v46 = chain46G (outs 2 main_v4 c) (m ((c.tc : Thread nD τ).loc main_arg1)) (m ((c.tc : Thread nD τ).loc main_arg4)) := by
  have h6 := e3_6 m outs c
  have h7 := e3_7 m outs c
  have h13 := e3_13 m outs c
  have h14 := e3_14 m outs c
  have hc := e3_cst2 m outs c
  have h4 := e3_4 m outs c
  have ha := V3_arg4 m outs c
  dsimp only [V5, V4, hostOps1_2, hostOps1_1]
  generalize V3 m outs c = W at h6 h7 h13 h14 hc h4 ha ⊢
  after_results_simp <;> (try simp only [TRef.ofBuf, TRef.toBuf, cast_eq]) <;> rw [h6, h7, h13, h14, hc, h4, ha] <;> rfl

/-! ### The second layer, likewise (the program repeats the index and weight computation) -/

theorem e7_49 : V7 m outs c main_v49 = Cert.ReferenceIdeal.Read.val_main_v50 (F := F) (m ((c.tc : Thread nD τ).loc main_arg1)) := by
  dsimp only [V7, hostOps2]
  after_results <;> rw [e6_1 m outs c] <;> rfl
theorem e7_50 : V7 m outs c main_v50 = Cert.ReferenceIdeal.Read.val_main_v51 (F := F) (m ((c.tc : Thread nD τ).loc main_arg1)) := by
  dsimp only [V7, hostOps2]
  after_results <;> rw [e6_3 m outs c] <;> rfl
theorem e7_56 : V7 m outs c main_v56 = Cert.ReferenceIdeal.Read.val_main_v57 (F := F) (m ((c.tc : Thread nD τ).loc main_arg1)) := by
  dsimp only [V7, hostOps2]
  after_results <;> rw [e6_3 m outs c] <;> rfl
theorem e7_57 : V7 m outs c main_v57 = Cert.ReferenceIdeal.Read.val_main_v58 (F := F) (m ((c.tc : Thread nD τ).loc main_arg1)) := by
  dsimp only [V7, hostOps2]
  after_results <;> rw [e6_3 m outs c] <;> rfl
theorem e7_cst12 : V7 m outs c main_cst_12 = Cert.ReferenceIdeal.Read.val_main_cst_12 (F := F) := by
  dsimp only [V7, hostOps2]
  after_results <;> rfl
theorem e7_47 : V7 m outs c main_v47 = outs 6 main_v47 c :=
  (V7_of m outs c main_v47 (by decide)).trans <| e6_47 m outs c
theorem V7_arg6 : V7 m outs c main_arg6 = m ((c.tc : Thread nD τ).loc main_arg6) :=
  (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide)).trans rfl

/-- After the second layer's host operations `main_v89` holds the chain of what region 1 left in `main_v47`. -/
theorem ker89G : V9 m outs c main_v89 = chain90G (outs 6 main_v47 c) (m ((c.tc : Thread nD τ).loc main_arg1)) (m ((c.tc : Thread nD τ).loc main_arg6)) := by
  have h49 := e7_49 m outs c
  have h50 := e7_50 m outs c
  have h56 := e7_56 m outs c
  have h57 := e7_57 m outs c
  have hc := e7_cst12 m outs c
  have h47 := e7_47 m outs c
  have ha := V7_arg6 m outs c
  dsimp only [V9, V8, hostOps2_2, hostOps2_1]
  generalize V7 m outs c = W at h49 h50 h56 h57 hc h47 ha ⊢
  after_results_simp <;> (try simp only [TRef.ofBuf, TRef.toBuf, cast_eq]) <;> rw [h49, h50, h56, h57, hc, h47, ha] <;> rfl

end Kernel

/-! ## At the exact reals -/

section AtIdeal

variable (m : (ℓ : Loc nD τ sig) → Buf (Elt Ideal) ℓ) (outs : Gen.Outs (F := Ideal)) (c : Dev nD)

/-- After the first layer's host operations `main_v46` holds the chain of what region 0 left in `main_v4`. -/
theorem ker46 : Gen.V5 m outs c main_v46
    = chain46 (outs 2 main_v4 c) (m ((c.tc : Thread nD τ).loc main_arg1)) (m ((c.tc : Thread nD τ).loc main_arg4)) :=
  (ker46G m outs c).trans (chain46G_ideal _ _ _)

/-- After the second layer's host operations `main_v89` holds the chain of what region 1 left in `main_v47`. -/
theorem ker89 : Gen.V9 m outs c main_v89
    = chain90 (outs 6 main_v47 c) (m ((c.tc : Thread nD τ).loc main_arg1)) (m ((c.tc : Thread nD τ).loc main_arg6)) :=
  (ker89G m outs c).trans (chain90G_ideal _ _ _)

end AtIdeal

end Cert.KernelIdeal.Val

end
-- ==== Proof.Val.Pool.lean ====
/-
  The value of the pool kernel (region 2) at the ideal values, against the reference's global mean pool.

  At the ideal values a float is an extended real, arithmetic is exact and a format change is the identity. The kernel
  walks 25 blocks of 4000 nodes. Per block it forms the one-hot matrix onehot (p, g) = [word of node p = g] (g < 64),
  adds onehotᵀ · block to a [64, 32] sums scratch and onehotᵀ · 1 to a [64, 1] counts scratch; after the last block it
  divides the sums by max (count, 1), multiplies by the weights and adds the bias. The reference scatter-adds the node
  embeddings (and ones) at the nodes' words read signed, an update outside [0, 64) dropped — exactly the nodes no
  one-hot column selects —, then divides, multiplies and adds likewise. Both sides are shown equal to the same sums
  SUM h x2 g q = Σ_i [x2 i = g] · h (i, q) and CNT x2 g = Σ_i [x2 i = g] over the 100000 nodes: the kernel's by
  induction over the points and the split 100000 = 25 × 4000, the reference's by reading where each update lands.
  Last, the blocks of region 2's four input windows read off any array.
-/
import proofs.«409070_j24455543783861_2_alg».proof.Proof.Gen.KernelIdeal.Skeleton
import proofs.«409070_j24455543783861_2_alg».proof.Proof.Ref.Read
import proofs.«409070_j24455543783861_2_alg».proof.Proof.LibDot
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws
import Mathlib.Algebra.BigOperators.Fin
import Mathlib.Logic.Equiv.Fin.Basic

noncomputable section

open scoped BigOperators

namespace Cert.KernelIdeal.Val

open Cert.KernelIdeal Cert.KernelIdeal.Gen Idealize.ShloMosaic Idealize.ShloMosaic.ValueIdx

/-! ## The one-hot factor -/

/-- The one-hot factor: a node's graph word against a graph number, as an extended real. -/
def oh (w : BitVec 32) (g : ℕ) : EReal := if w = BitVec.ofNat 32 g then 1 else 0

/-- The signed conversion of a widened one-bit equality compare is 1 where the words agree, 0 where they do not. -/
theorem sitofp_eq_bit (w c : BitVec 32) :
    (FloatOps.sitofp (F := Ideal) .f32 ((IntOp.cmpi .eq w c).setWidth 32) : EReal) = if w = c then 1 else 0 := by
  show ((((((IntOp.cmpi .eq w c).setWidth 32).toInt : ℤ) : ℝ)) : EReal) = _
  by_cases h : w = c
  · have e : IntOp.cmpi .eq w c = 1#1 := by simp [IntOp.cmpi, h]
    rw [e, if_pos h]
    have : ((1#1 : BitVec 1).setWidth 32).toInt = 1 := by decide
    rw [this]; simp
  · have hb : (w == c) = false := by simpa using h
    have e : IntOp.cmpi .eq w c = 0#1 := by simp [IntOp.cmpi, hb]
    rw [e, if_neg h]
    have : ((0#1 : BitVec 1).setWidth 32).toInt = 0 := by decide
    rw [this]; simp

/-- A column [a, 1] broadcast along its unit axis reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot block at (p, g): the factor of node p's word against g. -/
theorem pay3_apply (v3 : Vec Ideal S4000x1 .i32) (p : Fin 4000) (g : Fin 64) :
    k2_pay3 (F := Ideal) v3 (ix2 p g) = oh (v3 (ix2 p 0)) g.val := by
  unfold k2_pay3
  simp only [shapeCast_self]
  show FloatOps.sitofp (F := Ideal) .f32 ((IntOp.cmpi .eq (broadcastTo S4000x64 v3 _ (ix2 p g)) (broadcastTo S4000x64 (iota .tc S1x64 32 [1] _) _ (ix2 p g))).setWidth 32) = _
  rw [broadcastTo_a1_ab_apply, broadcastTo_1b_ab_apply, iota_single_apply, sitofp_eq_bit]
  rfl

/-! ## Products that contract axis 0 of both operands -/

/-- Σ over the record's contraction index of l (κ, n) · r (κ, j), for a record contracting axis 0 of a K × N left operand
    with axis 0 of a K × M right operand, no batch axis. -/
theorem contr0_sum {K N M : Nat} {φ₁ φ₂ : FTy} (d : DotDims ⟨2, ![K, N]⟩ ⟨2, ![K, M]⟩ ⟨2, ![N, M]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, N]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 κ n) * r (ix2 κ j) := by
  cases d with
  | mk lc rc ln rn lb rb wf =>
  simp only at hlc hrc hln hrn hlb hrb
  subst hlc hrc hln hrn hlb hrb
  generalize hD : (DotDims.mk [0] [0] [1] [1] [] [] wf : DotDims ⟨2, ![K, N]⟩ ⟨2, ![K, M]⟩ ⟨2, ![N, M]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have l0 : ∀ q : D.contr.Idx, (D.lhsIdx (ix2 n j) q 0).val = (q ⟨0, by omega⟩).val := fun q => by
    subst hD; exact DotDims.lhsIdx_val_of_single _ rfl _ q
  have l1 : ∀ q : D.contr.Idx, (D.lhsIdx (ix2 n j) q 1).val = n.val := fun q => by
    subst hD
    unfold DotDims.lhsIdx
    rw [dif_neg (by simp), dif_pos (by simp)]
    rfl
  have r0 : ∀ q : D.contr.Idx, (D.rhsIdx (ix2 n j) q 0).val = (q ⟨0, by omega⟩).val := fun q => by
    subst hD; exact DotDims.rhsIdx_val_of_single _ rfl _ q
  have r1 : ∀ q : D.contr.Idx, (D.rhsIdx (ix2 n j) q 1).val = j.val := fun q => by
    subst hD
    unfold DotDims.rhsIdx
    rw [dif_neg (by simp), dif_pos (by simp)]
    rfl
  have el : D.lhsIdx (ix2 n j) ((contrEquiv1 D K hr hs).symm k) = ix2 k n :=
    Shape.idx_ext₂ ((l0 _).trans hk) (l1 _)
  have er : D.rhsIdx (ix2 n j) ((contrEquiv1 D K hr hs).symm k) = ix2 k j :=
    Shape.idx_ext₂ ((r0 _).trans hk) (r1 _)
  rw [el, er]

/-- The accumulating block product of such a record at (n, j): the accumulator's entry plus Σ_κ l (κ, n) · r (κ, j). -/
theorem matmul0_apply {K N M : Nat} {φ₁ φ₂ : FTy} (d : DotDims ⟨2, ![K, N]⟩ ⟨2, ![K, M]⟩ ⟨2, ![N, M]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision)
    (l : FVec Ideal ⟨2, ![K, N]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 κ n) * r (ix2 κ j) := by
  rw [Ideal.matmul_apply]
  exact congrArg (acc (ix2 n j) + ·) (contr0_sum d hlc hrc hln hrn hlb hrb l r n j)

/-! ## The pool's payloads at an index -/

theorem pay1_apply (i : S64x32.Idx) : k2_pay1 (F := Ideal) i = 0 := by
  unfold k2_pay1
  simp only [shapeCast_self]
  show Ideal.ofBits .f32 0x00000000#32 = 0
  exact Ideal.ofBits_zero_f32

theorem pay2_apply (i : S64x1.Idx) : k2_pay2 (F := Ideal) i = 0 := by
  unfold k2_pay2
  simp only [shapeCast_self]
  show Ideal.ofBits .f32 0x00000000#32 = 0
  exact Ideal.ofBits_zero_f32

/-- The sums scratch after a point: what it held plus, at (g, q), Σ_p onehot (p, g) · block (p, q). -/
theorem pay4_apply (v3 : Vec Ideal S4000x1 .i32) (v12 : Vec Ideal S4000x32 .f32) (v18 : Vec Ideal S64x32 .f32) (g : Fin 64) (q : Fin 32) :
    k2_pay4 (F := Ideal) v3 v12 v18 (ix2 g q) = v18 (ix2 g q) + ∑ p : Fin 4000, oh (v3 (ix2 p 0)) g.val * v12 (ix2 p q) := by
  unfold k2_pay4
  simp only [shapeCast_self]
  rw [addf_apply]
  show v18 (ix2 g q) + FloatOps.matmul dot_S4000x64_S4000x32_S64x32_0_0_1_1_n_n none (k2_pay3 v3) (truncf .bf16 v12 _) (constant S64x32 .f32 0x00000000#32) (ix2 g q) = _
  rw [matmul0_apply _ rfl rfl rfl rfl rfl rfl]
  show v18 (ix2 g q) + (Ideal.ofBits .f32 0x00000000#32 + _) = _
  rw [Ideal.ofBits_zero_f32, zero_add]
  refine congrArg (v18 (ix2 g q) + ·) (Finset.sum_congr rfl fun p _ => ?_)
  rw [pay3_apply]; rfl

/-- The counts scratch after a point: what it held plus, at g, Σ_p onehot (p, g). -/
theorem pay5_apply (v3 : Vec Ideal S4000x1 .i32) (v23 : Vec Ideal S64x1 .f32) (g : Fin 64) :
    k2_pay5 (F := Ideal) v3 v23 (ix2 g 0) = v23 (ix2 g 0) + ∑ p : Fin 4000, oh (v3 (ix2 p 0)) g.val := by
  unfold k2_pay5
  simp only [shapeCast_self]
  rw [addf_apply]
  show v23 (ix2 g 0) + FloatOps.matmul dot_S4000x64_S4000x1_S64x1_0_0_1_1_n_n none (k2_pay3 v3) (broadcast S4000x1 (Scalar.ofBits .bf16 0x3F80#16)) (constant S64x1 .f32 0x00000000#32) (ix2 g 0) = _
  rw [matmul0_apply _ rfl rfl rfl rfl rfl rfl]
  show v23 (ix2 g 0) + (Ideal.ofBits .f32 0x00000000#32 + _) = _
  rw [Ideal.ofBits_zero_f32, zero_add]
  refine congrArg (v23 (ix2 g 0) + ·) (Finset.sum_congr rfl fun p _ => ?_)
  rw [pay3_apply]
  show oh _ _ * Ideal.ofBits .bf16 0x3F80#16 = _
  have : Ideal.ofBits .bf16 0x3F80#16 = 1 := IdealRules.sign_bit.ideal_onePat .bf16
  rw [this, mul_one]

/-! ## Words, sums -/

/-- A graph number below 64, as a 32-bit word read signed, is itself. -/
theorem toInt_ofNat_small (g : ℕ) (hg : g < 64) : (BitVec.ofNat 32 g).toInt = (g : Int) := by
  rw [BitVec.toInt_eq_toNat_cond, BitVec.toNat_ofNat]
  have e : g % 2 ^ 32 = g := Nat.mod_eq_of_lt (by omega)
  rw [e]
  split <;> omega

/-- A word is the graph number g (below 64) exactly when it reads g signed. -/
theorem word_eq_iff (w : BitVec 32) (g : ℕ) (hg : g < 64) : w = BitVec.ofNat 32 g ↔ w.toInt = (g : Int) := by
  constructor
  · rintro rfl; exact toInt_ofNat_small g hg
  · intro h; exact BitVec.eq_of_toInt_eq (h.trans (toInt_ofNat_small g hg).symm)

/-- The one-hot factor times a value: the value where the word is g, 0 elsewhere. -/
theorem oh_mul (w : BitVec 32) (g : ℕ) (y : EReal) : oh w g * y = if w = BitVec.ofNat 32 g then y else 0 := by
  unfold oh; split
  · exact one_mul y
  · exact zero_mul y

/-- A sum over q of a term present only at q = κ (and under a condition P) is that one term. -/
theorem sum_pick {n : ℕ} (P : Prop) [Decidable P] (κ : Fin n) (f : Fin n → EReal) :
    (∑ q : Fin n, if P ∧ q.val = κ.val then f q else 0) = if P then f κ else 0 := by
  by_cases hP : P
  · rw [if_pos hP, Finset.sum_eq_single κ]
    · rw [if_pos ⟨hP, rfl⟩]
    · intro b _ hb; rw [if_neg (fun e => hb (Fin.ext e.2))]
    · intro h; exact absurd (Finset.mem_univ κ) h
  · rw [if_neg hP]
    exact Finset.sum_eq_zero fun q _ => if_neg (fun e => hP e.1)

/-- The node that row p of block t is. -/
abbrev node (t : Fin 25) (p : Fin 4000) : Fin 100000 := ⟨t.val * 4000 + p.val, by omega⟩

/-- A sum over the 100000 nodes is the sum over the 25 blocks of the sums over each block's 4000 rows. -/
theorem sum_nodes {M : Type*} [AddCommMonoid M] (f : Fin 100000 → M) :
    ∑ i, f i = ∑ t : Fin 25, ∑ p : Fin 4000, f (node t p) := by
  rw [← Equiv.sum_comp (finProdFinEquiv : Fin 25 × Fin 4000 ≃ Fin 100000) f, Fintype.sum_prod_type]
  refine Finset.sum_congr rfl fun t _ => Finset.sum_congr rfl fun p _ => congrArg f (Fin.ext ?_)
  show p.val + 4000 * t.val = t.val * 4000 + p.val
  omega

/-- A scratch that starts at the first point's contribution and gains one contribution per point holds their sum. -/
theorem fold_sum {ι : Type} (A c : ℕ → ι → EReal) (h0 : ∀ i, A 0 i = c 0 i)
    (hs : ∀ n, n < 24 → ∀ i, A (n + 1) i = A n i + c (n + 1) i) :
    ∀ n, n ≤ 24 → ∀ i, A n i = ∑ t ∈ Finset.range (n + 1), c t i := by
  intro n
  induction n with
  | zero => intro _ i; rw [h0 i]; simp
  | succ n ih =>
    intro hn i
    rw [hs n (by omega) i, ih (by omega) i, Finset.sum_range_succ _ (n + 1)]

/-! ## The last payload: divide by the counts, multiply by the weights, add the bias -/

theorem pay6_apply (v31 : Vec Ideal S64x32 .f32) (v32 : Vec Ideal S64x1 .f32) (v38 : Vec Ideal S32x32 .f32) (v41 : Vec Ideal S1x32 .f32)
    (g : Fin 64) (j : Fin 32) :
    k2_pay6 (F := Ideal) v31 v32 v38 v41 (ix2 g j)
      = (∑ κ : Fin 32, Ideal.div (v31 (ix2 g κ)) (max (v32 (ix2 g 0)) 1) * v38 (ix2 κ j)) + v41 (ix2 0 j) := by
  unfold k2_pay6
  simp only [shapeCast_self]
  rw [addf_apply, broadcastTo_1b_ab_apply]
  refine congrArg (· + v41 (ix2 0 j)) ?_
  show FloatOps.matmul dot_S64x32_S32x32_S64x32_1_0_0_1_n_n none _ _ (constant S64x32 .f32 0x00000000#32) (ix2 g j) = _
  rw [Cert.LibDot.matmul_rows_apply _ rfl rfl rfl rfl rfl rfl]
  show Ideal.ofBits .f32 0x00000000#32 + _ = _
  rw [Ideal.ofBits_zero_f32, zero_add]
  refine Finset.sum_congr rfl fun κ _ => ?_
  rw [truncf_apply, truncf_apply, divf_apply, broadcastTo_a1_ab_apply, maximumf_apply]
  show Ideal.div _ (max _ (Ideal.ofBits .f32 0x3F800000#32)) * _ = _
  have : Ideal.ofBits .f32 0x3F800000#32 = 1 := IdealRules.sign_bit.ideal_onePat .f32
  rw [this]

/-! ## The pooled sums and counts, and the scratches after the last point -/

/-- Σ over the nodes of graph g of h (·, q). -/
def SUM (h : FVec Ideal S100000x32 .f32) (x2 : IVec S100000 32) (g : Fin 64) (q : Fin 32) : EReal :=
  ∑ i : Fin 100000, oh (x2 (ix1 i)) g.val * h (ix2 i q)

/-- The number of nodes of graph g. -/
def CNT (x2 : IVec S100000 32) (g : Fin 64) : EReal := ∑ i : Fin 100000, oh (x2 (ix1 i)) g.val

/-- After the 25 points the sums scratch holds, at (g, q), the pooled sum, and the counts scratch, at g, the count:
    each point adds its block's contribution, and the 25 blocks of 4000 rows are the 100000 nodes. -/
theorem scratch_value (h : FVec Ideal S100000x32 .f32) (x2 : IVec S100000 32)
    (b0 : Fin 25 → Vec Ideal S4000x32 .f32) (b1 : Fin 25 → Vec Ideal S4000x1 .i32)
    (hb0 : ∀ (t : Fin 25) (p : Fin 4000) (q : Fin 32), b0 t (ix2 p q) = h (ix2 (node t p) q))
    (hb1 : ∀ (t : Fin 25) (p : Fin 4000), b1 t (ix2 p 0) = x2 (ix1 (node t p)))
    (S : ℕ → Vec Ideal S64x32 .f32 × Vec Ideal S64x1 .f32)
    (hS0 : S 0 = (k2_pay4 (b1 0) (b0 0) (k2_pay1 (F := Ideal)), k2_pay5 (b1 0) (k2_pay2 (F := Ideal))))
    (hSs : ∀ n (hn : n < 24), S (n + 1) = (k2_pay4 (b1 ⟨n + 1, by omega⟩) (b0 ⟨n + 1, by omega⟩) (S n).1, k2_pay5 (b1 ⟨n + 1, by omega⟩) (S n).2))
    (g : Fin 64) :
    (∀ q : Fin 32, (S 24).1 (ix2 g q) = SUM h x2 g q) ∧ (S 24).2 (ix2 g 0) = CNT x2 g := by
  constructor
  · intro q
    have key := fold_sum (ι := Fin 64 × Fin 32) (fun n i => (S n).1 (ix2 i.1 i.2))
      (fun t i => if ht : t < 25 then ∑ p : Fin 4000, oh (b1 ⟨t, ht⟩ (ix2 p 0)) i.1.val * b0 ⟨t, ht⟩ (ix2 p i.2) else 0)
      (fun i => by
        show (S 0).1 (ix2 i.1 i.2) = _
        rw [hS0, dif_pos (by omega)]
        show k2_pay4 (b1 0) (b0 0) (k2_pay1 (F := Ideal)) (ix2 i.1 i.2) = _
        rw [pay4_apply, pay1_apply, zero_add]; rfl)
      (fun n hn i => by
        show (S (n + 1)).1 (ix2 i.1 i.2) = (S n).1 (ix2 i.1 i.2) + _
        rw [hSs n hn, dif_pos (by omega)]
        show k2_pay4 _ _ (S n).1 (ix2 i.1 i.2) = _
        rw [pay4_apply])
      24 le_rfl (g, q)
    refine key.trans ?_
    rw [Finset.sum_range (fun t => if ht : t < 25 then ∑ p : Fin 4000, oh (b1 ⟨t, ht⟩ (ix2 p 0)) g.val * b0 ⟨t, ht⟩ (ix2 p q) else 0)]
    unfold SUM
    rw [sum_nodes]
    refine Finset.sum_congr rfl fun t _ => ?_
    rw [dif_pos t.isLt]
    refine Finset.sum_congr rfl fun p _ => ?_
    show oh (b1 t (ix2 p 0)) g.val * b0 t (ix2 p q) = _
    rw [hb0, hb1]
  · have key := fold_sum (ι := Fin 64) (fun n i => (S n).2 (ix2 i 0))
      (fun t i => if ht : t < 25 then ∑ p : Fin 4000, oh (b1 ⟨t, ht⟩ (ix2 p 0)) i.val else 0)
      (fun i => by
        show (S 0).2 (ix2 i 0) = _
        rw [hS0, dif_pos (by omega)]
        show k2_pay5 (b1 0) (k2_pay2 (F := Ideal)) (ix2 i 0) = _
        rw [pay5_apply, pay2_apply, zero_add]; rfl)
      (fun n hn i => by
        show (S (n + 1)).2 (ix2 i 0) = (S n).2 (ix2 i 0) + _
        rw [hSs n hn, dif_pos (by omega)]
        show k2_pay5 _ (S n).2 (ix2 i 0) = _
        rw [pay5_apply])
      24 le_rfl g
    refine key.trans ?_
    rw [Finset.sum_range (fun t => if ht : t < 25 then ∑ p : Fin 4000, oh (b1 ⟨t, ht⟩ (ix2 p 0)) g.val else 0)]
    unfold CNT
    rw [sum_nodes]
    refine Finset.sum_congr rfl fun t _ => ?_
    rw [dif_pos t.isLt]
    refine Finset.sum_congr rfl fun p _ => ?_
    show oh (b1 t (ix2 p 0)) g.val = _
    rw [hb1]

/-! ## The reference's two scatters: where an update lands -/

/-- The sums scatter's record. -/
abbrev RS := Cert.ReferenceIdeal.scatter_S64x32_S100000x1_S100000x32_1_0_0_1
/-- The counts scatter's record. -/
abbrev RC := Cert.ReferenceIdeal.scatter_S64_S100000x1_S100000_n_0_0_1

theorem RS_start0 (j : Cert.ReferenceIdeal.S100000x32.Idx) (idx : IVec Cert.ReferenceIdeal.S100000x1 32) :
    RS.start j idx 0 = (idx (ix2 (j 0) 0)).toInt := by
  unfold ScatterDims.start
  rw [dif_pos (show (0 : Fin Cert.ReferenceIdeal.S64x32.rank) ∈ RS.scatterDimsToOperandDims by decide)]
  refine congrArg (fun k => (idx k).toInt) (funext fun b => ?_)
  match b with
  | ⟨0, _⟩ => rfl
  | ⟨1, _⟩ => rfl

theorem RS_start1 (j : Cert.ReferenceIdeal.S100000x32.Idx) (idx : IVec Cert.ReferenceIdeal.S100000x1 32) :
    RS.start j idx 1 = 0 := by
  unfold ScatterDims.start
  rw [dif_neg (show ¬(1 : Fin Cert.ReferenceIdeal.S64x32.rank) ∈ RS.scatterDimsToOperandDims by decide)]

theorem RS_window0 (j : Cert.ReferenceIdeal.S100000x32.Idx) : RS.window j 0 = 0 := by
  unfold ScatterDims.window
  rw [dif_neg (show ¬(0 : Fin Cert.ReferenceIdeal.S64x32.rank) ∈ RS.sKept by decide)]

theorem RS_window1 (j : Cert.ReferenceIdeal.S100000x32.Idx) : RS.window j 1 = (j 1).val := by
  unfold ScatterDims.window
  rw [dif_pos (show (1 : Fin Cert.ReferenceIdeal.S64x32.rank) ∈ RS.sKept by decide)]
  rfl

/-- An update (i, q') of the sums scatter lands on (g, q) exactly when node i's word, read signed, is g and q' = q. -/
theorem RS_result_iff (j : Cert.ReferenceIdeal.S100000x32.Idx) (idx : IVec Cert.ReferenceIdeal.S100000x1 32) (g : Fin 64) (q : Fin 32) :
    RS.resultIdx? j idx = some (ix2 g q) ↔ (idx (ix2 (j 0) 0)).toInt = (g.val : Int) ∧ (j 1).val = q.val := by
  have T0 : RS.start j idx 0 + (RS.window j 0 : Int) = (idx (ix2 (j 0) 0)).toInt := by rw [RS_start0, RS_window0]; simp
  have T1 : RS.start j idx 1 + (RS.window j 1 : Int) = ((j 1).val : Int) := by rw [RS_start1, RS_window1]; simp
  unfold ScatterDims.resultIdx?
  by_cases h : ∀ a, 0 ≤ RS.start j idx a + RS.window j a ∧ RS.start j idx a + RS.window j a < Cert.ReferenceIdeal.S64x32.size a
  · rw [dif_pos h, Option.some.injEq]
    constructor
    · intro e
      have e0 : (RS.start j idx 0 + (RS.window j 0 : Int)).toNat = g.val := congrArg (fun r => (r 0).val) e
      have e1 : (RS.start j idx 1 + (RS.window j 1 : Int)).toNat = q.val := congrArg (fun r => (r 1).val) e
      have h0 := (h 0).1
      rw [T0] at e0 h0; rw [T1] at e1
      constructor
      · omega
      · omega
    · rintro ⟨h0, h1⟩
      refine Shape.idx_ext₂ ?_ ?_
      · show (RS.start j idx 0 + (RS.window j 0 : Int)).toNat = g.val
        rw [T0]; omega
      · show (RS.start j idx 1 + (RS.window j 1 : Int)).toNat = q.val
        rw [T1]; omega
  · rw [dif_neg h]
    refine iff_of_false (by simp) ?_
    rintro ⟨h0, h1⟩
    apply h
    intro a
    match a with
    | ⟨0, _⟩ =>
      show 0 ≤ RS.start j idx 0 + (RS.window j 0 : Int) ∧ RS.start j idx 0 + (RS.window j 0 : Int) < ((64 : ℕ) : Int)
      rw [T0]; have := g.isLt; omega
    | ⟨1, _⟩ =>
      show 0 ≤ RS.start j idx 1 + (RS.window j 1 : Int) ∧ RS.start j idx 1 + (RS.window j 1 : Int) < ((32 : ℕ) : Int)
      rw [T1]; have := q.isLt; omega

theorem RC_start0 (j : Cert.ReferenceIdeal.S100000.Idx) (idx : IVec Cert.ReferenceIdeal.S100000x1 32) :
    RC.start j idx 0 = (idx (ix2 (j 0) 0)).toInt := by
  unfold ScatterDims.start
  rw [dif_pos (show (0 : Fin Cert.ReferenceIdeal.S64.rank) ∈ RC.scatterDimsToOperandDims by decide)]
  refine congrArg (fun k => (idx k).toInt) (funext fun b => ?_)
  match b with
  | ⟨0, _⟩ => rfl
  | ⟨1, _⟩ => rfl

theorem RC_window0 (j : Cert.ReferenceIdeal.S100000.Idx) : RC.window j 0 = 0 := by
  unfold ScatterDims.window
  rw [dif_neg (show ¬(0 : Fin Cert.ReferenceIdeal.S64.rank) ∈ RC.sKept by decide)]

/-- An update i of the counts scatter lands on g exactly when node i's word, read signed, is g. -/
theorem RC_result_iff (j : Cert.ReferenceIdeal.S100000.Idx) (idx : IVec Cert.ReferenceIdeal.S100000x1 32) (g : Fin 64) :
    RC.resultIdx? j idx = some (ix1 g) ↔ (idx (ix2 (j 0) 0)).toInt = (g.val : Int) := by
  have T0 : RC.start j idx 0 + (RC.window j 0 : Int) = (idx (ix2 (j 0) 0)).toInt := by rw [RC_start0, RC_window0]; simp
  unfold ScatterDims.resultIdx?
  by_cases h : ∀ a, 0 ≤ RC.start j idx a + RC.window j a ∧ RC.start j idx a + RC.window j a < Cert.ReferenceIdeal.S64.size a
  · rw [dif_pos h, Option.some.injEq]
    constructor
    · intro e
      have e0 : (RC.start j idx 0 + (RC.window j 0 : Int)).toNat = g.val := congrArg (fun r => (r 0).val) e
      have h0 := (h 0).1
      rw [T0] at e0 h0
      omega
    · intro h0
      funext a
      match a with
      | ⟨0, _⟩ =>
        refine Fin.ext ?_
        show (RC.start j idx 0 + (RC.window j 0 : Int)).toNat = g.val
        rw [T0]; omega
  · rw [dif_neg h]
    refine iff_of_false (by simp) ?_
    intro h0
    apply h
    intro a
    match a with
    | ⟨0, _⟩ =>
      show 0 ≤ RC.start j idx 0 + (RC.window j 0 : Int) ∧ RC.start j idx 0 + (RC.window j 0 : Int) < ((64 : ℕ) : Int)
      rw [T0]; have := g.isLt; omega

/-! ## The reference's two scatters as the pooled sums and counts -/

/-- The sums scatter from zeros, its indices the nodes' words: at (g, κ) the pooled sum. -/
theorem scatter_sums (z : FVec Ideal Cert.ReferenceIdeal.S64x32 .f32) (idx : IVec Cert.ReferenceIdeal.S100000x1 32)
    (h : FVec Ideal S100000x32 .f32) (x2 : IVec S100000 32)
    (hz : ∀ i, z i = 0) (hidx : ∀ i : Fin 100000, idx (ix2 i 0) = x2 (ix1 i)) (g : Fin 64) (κ : Fin 32) :
    Host.scatterAdd RS z idx h (ix2 g κ) = SUM h x2 g κ := by
  show Ideal.hostScatterAdd RS z idx h (ix2 g κ) = _
  unfold Ideal.hostScatterAdd
  rw [hz, zero_add, Finset.sum_filter, sum_idx2]
  unfold SUM
  refine Finset.sum_congr rfl fun i _ => ?_
  have e : ∀ q : Fin 32, (if RS.resultIdx? (ix2 i q) idx = some (ix2 g κ) then h (ix2 i q) else 0)
      = if (x2 (ix1 i)).toInt = (g.val : Int) ∧ q.val = κ.val then h (ix2 i q) else 0 := fun q =>
    if_congr ((RS_result_iff (ix2 i q) idx g κ).trans (by rw [← hidx i])) rfl rfl
  rw [Finset.sum_congr rfl fun q _ => e q, sum_pick, oh_mul]
  exact if_congr (word_eq_iff _ _ g.isLt).symm rfl rfl

/-- The counts scatter of ones from zeros, its indices the nodes' words: at g the count. -/
theorem scatter_counts (z : FVec Ideal Cert.ReferenceIdeal.S64 .f32) (idx : IVec Cert.ReferenceIdeal.S100000x1 32)
    (ones : FVec Ideal Cert.ReferenceIdeal.S100000 .f32) (x2 : IVec S100000 32)
    (hz : ∀ i, z i = 0) (hidx : ∀ i : Fin 100000, idx (ix2 i 0) = x2 (ix1 i)) (hones : ∀ i, ones i = 1) (g : Fin 64) :
    Host.scatterAdd RC z idx ones (ix1 g) = CNT x2 g := by
  show Ideal.hostScatterAdd RC z idx ones (ix1 g) = _
  unfold Ideal.hostScatterAdd
  rw [hz, zero_add, Finset.sum_filter, ← Equiv.sum_comp (idxEquiv1 (n := 100000)).symm]
  unfold CNT
  refine Finset.sum_congr rfl fun i _ => ?_
  show (if RC.resultIdx? (ix1 i) idx = some (ix1 g) then ones (ix1 i) else 0) = oh (x2 (ix1 i)) g.val
  rw [hones]
  unfold oh
  exact if_congr ((RC_result_iff (ix1 i) idx g).trans ((by rw [← hidx i] : _ ↔ _).trans (word_eq_iff _ _ g.isLt).symm)) rfl rfl

/-! ## The reference's pooled summary -/

/-- The reference's pooled summary as one function of the node embeddings h. -/
def pooled (h : FVec Ideal S100000x32 .f32) (x2 : IVec S100000 32) (x7 : FVec Ideal S32x32 .f32) (x8 : FVec Ideal S32 .f32) : FVec Ideal S64x32 .f32 :=
  addf (Host.dotGeneral Cert.ReferenceIdeal.dot_S64x32_S32x32_S64x32_1_0_0_1_n_n none (Host.divf (Host.scatterAdd Cert.ReferenceIdeal.scatter_S64x32_S100000x1_S100000x32_1_0_0_1 (Cert.ReferenceIdeal.Read.val_main_v95 (F := Ideal)) (Cert.ReferenceIdeal.Read.val_main_v96 (F := Ideal) x2) h) (Cert.ReferenceIdeal.Read.val_main_v101 (F := Ideal) x2)) x7) (Cert.ReferenceIdeal.Read.val_main_v105 (F := Ideal) x8)

/-- The reference's last stage is the pooled summary of its node embeddings (stage 90). -/
theorem ref106 (x0 x1 x2 x3 x4 x5 x6 x7 x8) :
    Cert.ReferenceIdeal.Read.val_main_v106 (F := Ideal) x0 x1 x2 x3 x4 x5 x6 x7 x8
      = pooled (Cert.ReferenceIdeal.Read.val_main_v90 (F := Ideal) x0 x1 x3 x4 x5 x6) x2 x7 x8 := rfl

/-- The scatters' index operand at node i is node i's word. -/
theorem v96_at (x2 : IVec S100000 32) (i : Fin 100000) :
    Cert.ReferenceIdeal.Read.val_main_v96 (F := Ideal) x2 (ix2 i 0) = x2 (ix1 i) := by
  rw [Cert.ReferenceIdeal.Read.val_main_v96_apply]
  exact congrArg x2 (funext fun a => match a with | ⟨0, _⟩ => rfl)

theorem v93_at (x2 : IVec S100000 32) (i : Fin 100000) :
    Cert.ReferenceIdeal.Read.val_main_v93 (F := Ideal) x2 (ix2 i 0) = x2 (ix1 i) := by
  rw [Cert.ReferenceIdeal.Read.val_main_v93_apply]
  exact congrArg x2 (funext fun a => match a with | ⟨0, _⟩ => rfl)

/-- The reference's counts (stage 94) at g. -/
theorem v94_at (x2 : IVec S100000 32) (g : Fin 64) :
    Cert.ReferenceIdeal.Read.val_main_v94 (F := Ideal) x2 (ix1 g) = CNT x2 g := by
  unfold Cert.ReferenceIdeal.Read.val_main_v94
  refine scatter_counts _ _ _ x2 (fun i => ?_) (v93_at x2) (fun i => ?_) g
  · rw [Cert.ReferenceIdeal.Read.val_main_v92_apply, Cert.ReferenceIdeal.Read.val_main_cst_21_apply]
    exact Ideal.ofBits_zero_f32
  · rw [Cert.ReferenceIdeal.Read.val_main_v91_apply, Cert.ReferenceIdeal.Read.val_main_cst_20_apply]
    exact IdealRules.sign_bit.ideal_onePat .f32

/-- The reference's divisor (stage 101) at (g, κ): the count of g, at least 1. -/
theorem v101_at (x2 : IVec S100000 32) (g : Fin 64) (κ : Fin 32) :
    Cert.ReferenceIdeal.Read.val_main_v101 (F := Ideal) x2 (ix2 g κ) = max (CNT x2 g) 1 := by
  rw [Cert.ReferenceIdeal.Read.val_main_v101_apply, Cert.ReferenceIdeal.Read.val_main_v100_apply,
    Cert.ReferenceIdeal.Read.val_main_v99_apply]
  have e : Cert.ReferenceIdeal.Read.idx_main_v100 (Cert.ReferenceIdeal.Read.idx_main_v101 (ix2 g κ)) = ix1 g :=
    funext fun a => match a with | ⟨0, _⟩ => rfl
  rw [e, v94_at, Cert.ReferenceIdeal.Read.val_main_v98_apply, Cert.ReferenceIdeal.Read.val_main_cst_23_apply]
  show max _ (Ideal.ofBits .f32 0x3F800000#32) = _
  have : Ideal.ofBits .f32 0x3F800000#32 = 1 := IdealRules.sign_bit.ideal_onePat .f32
  rw [this]

/-- The reference's bias broadcast (stage 105) at (g, j). -/
theorem v105_at (x8 : FVec Ideal S32 .f32) (g : Fin 64) (j : Fin 32) :
    Cert.ReferenceIdeal.Read.val_main_v105 (F := Ideal) x8 (ix2 g j) = x8 (ix1 j) := by
  rw [Cert.ReferenceIdeal.Read.val_main_v105_apply, Cert.ReferenceIdeal.Read.val_main_v104_apply]
  exact congrArg x8 (funext fun a => match a with | ⟨0, _⟩ => rfl)

/-- The host's division at an index is the division of the two elements. -/
theorem hostDivf_apply {s : Shape} {φ : FTy} (a b : FVec Ideal s φ) (i : s.Idx) : Host.divf a b i = Ideal.div (a i) (b i) := rfl

/-- The pooled summary at (g, j): the mean of h over graph g's nodes (sum over count, the count at least 1), times the
    weights, plus the bias. -/
theorem pooled_apply (h : FVec Ideal S100000x32 .f32) (x2 : IVec S100000 32) (x7 : FVec Ideal S32x32 .f32) (x8 : FVec Ideal S32 .f32)
    (g : Fin 64) (j : Fin 32) :
    pooled h x2 x7 x8 (ix2 g j)
      = (∑ κ : Fin 32, Ideal.div (SUM h x2 g κ) (max (CNT x2 g) 1) * x7 (ix2 κ j)) + x8 (ix1 j) := by
  unfold pooled
  rw [addf_apply, v105_at, Cert.LibDot.dot_rows_apply _ rfl rfl rfl rfl rfl rfl]
  refine congrArg (· + x8 (ix1 j)) (Finset.sum_congr rfl fun κ _ => ?_)
  have hz : ∀ i, Cert.ReferenceIdeal.Read.val_main_v95 (F := Ideal) i = 0 := fun i => by
    rw [Cert.ReferenceIdeal.Read.val_main_v95_apply, Cert.ReferenceIdeal.Read.val_main_cst_22_apply]
    exact Ideal.ofBits_zero_f32
  rw [hostDivf_apply, v101_at, scatter_sums _ _ h x2 hz (v96_at x2)]

/-! ## The pool kernel's value -/

/-- THE POOL KERNEL'S VALUE: the last payload of the scratches the 25 points leave is the reference's pooled summary. -/
theorem pool_value (h : FVec Ideal S100000x32 .f32) (x2 : IVec S100000 32) (x7 : FVec Ideal S32x32 .f32) (x8 : FVec Ideal S32 .f32)
    (b0 : Fin 25 → Vec Ideal S4000x32 .f32) (b1 : Fin 25 → Vec Ideal S4000x1 .i32)
    (ws : Vec Ideal S32x32 .f32) (bsv : Vec Ideal S1x32 .f32)
    (hb0 : ∀ (t : Fin 25) (p : Fin 4000) (q : Fin 32), b0 t (ix2 p q) = h (ix2 ⟨t.val * 4000 + p.val, by omega⟩ q))
    (hb1 : ∀ (t : Fin 25) (p : Fin 4000), b1 t (ix2 p 0) = x2 (ix1 ⟨t.val * 4000 + p.val, by omega⟩))
    (hws : ws = x7) (hbs : ∀ q : Fin 32, bsv (ix2 0 q) = x8 (ix1 q))
    (S : ℕ → Vec Ideal S64x32 .f32 × Vec Ideal S64x1 .f32)
    (hS0 : S 0 = (k2_pay4 (b1 0) (b0 0) (k2_pay1 (F := Ideal)), k2_pay5 (b1 0) (k2_pay2 (F := Ideal))))
    (hSs : ∀ n (hn : n < 24), S (n + 1) = (k2_pay4 (b1 ⟨n + 1, by omega⟩) (b0 ⟨n + 1, by omega⟩) (S n).1, k2_pay5 (b1 ⟨n + 1, by omega⟩) (S n).2)) :
    k2_pay6 (F := Ideal) (S 24).1 (S 24).2 ws bsv = pooled h x2 x7 x8 := by
  funext i
  obtain ⟨g, j, rfl⟩ : ∃ (g : Fin 64) (j : Fin 32), i = ix2 g j := ⟨i 0, i 1, eq_ix2 i⟩
  rw [pay6_apply, pooled_apply, hbs, hws]
  obtain ⟨hsum, hcnt⟩ := scratch_value h x2 b0 b1 hb0 hb1 S hS0 hSs g
  rw [hcnt]
  refine congrArg (· + x8 (ix1 j)) (Finset.sum_congr rfl fun κ _ => ?_)
  rw [hsum]

/-! ## The blocks of region 2's input windows, read off any array -/

/-- The printed index maps of the two tiled windows, decided over the grid: block t of each is at row block t, column block 0. -/
theorem win2_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

theorem blk2_0_read (A : FVec Ideal S100000x32 .f32) (t : Fin cfg2.N) (p : Fin 4000) (q : Fin 32) :
    ((cfg2.win 0).blk t).view.read (Elt Ideal) A (ix2 p q) = A (ix2 ⟨t.val * 4000 + p.val, by have := t.isLt; have : cfg2.N = 25 := rfl; omega⟩ q) := by
  obtain ⟨e0, e1, -⟩ := win2_index t
  show A (((cfg2.win 0).blk t).view.emb (ix2 p q)) = _
  refine congrArg A (funext fun a => Fin.ext ?_)
  match a with
  | ⟨0, _⟩ => show win2_0.index t (0 : Fin 2) * 4000 + 1 * p.val = t.val * 4000 + p.val; rw [e0]; omega
  | ⟨1, _⟩ => show win2_0.index t (1 : Fin 2) * 32 + 1 * q.val = q.val; rw [e1]; omega

theorem blk2_1_read (A : S100000x1.Idx → BitVec 32) (t : Fin cfg2.N) (p : Fin 4000) :
    ((cfg2.win 1).blk t).view.read (Elt Ideal) A (ix2 p 0) = A (ix2 ⟨t.val * 4000 + p.val, by have := t.isLt; have : cfg2.N = 25 := rfl; omega⟩ 0) := by
  obtain ⟨-, -, e0, e1, -⟩ := win2_index t
  show A (((cfg2.win 1).blk t).view.emb (ix2 p 0)) = _
  refine congrArg A (funext fun a => Fin.ext ?_)
  match a with
  | ⟨0, _⟩ => show win2_1.index t (0 : Fin 2) * 4000 + 1 * p.val = t.val * 4000 + p.val; rw [e0]; omega
  | ⟨1, _⟩ => show win2_1.index t (1 : Fin 2) * 1 + 1 * 0 = 0; rw [e1]

/-- The weights' window is the whole array at every point. -/
theorem blk2_2_read (A : FVec Ideal S32x32 .f32) (t : Fin cfg2.N) (y : S32x32.Idx) :
    ((cfg2.win 2).blk t).view.read (Elt Ideal) A y = A y := by
  obtain ⟨-, -, -, -, e0, e1, -⟩ := win2_index t
  show A (((cfg2.win 2).blk t).view.emb y) = _
  refine congrArg A (funext fun a => Fin.ext ?_)
  match a with
  | ⟨0, _⟩ => show win2_2.index t (0 : Fin 2) * 32 + 1 * (y 0).val = (y 0).val; rw [e0]; omega
  | ⟨1, _⟩ => show win2_2.index t (1 : Fin 2) * 32 + 1 * (y 1).val = (y 1).val; rw [e1]; omega

/-- The bias's window is the whole array at every point. -/
theorem blk2_3_read (A : FVec Ideal S1x32 .f32) (t : Fin cfg2.N) (y : S1x32.Idx) :
    ((cfg2.win 3).blk t).view.read (Elt Ideal) A y = A y := by
  obtain ⟨-, -, -, -, -, -, e0, e1⟩ := win2_index t
  show A (((cfg2.win 3).blk t).view.emb y) = _
  refine congrArg A (funext fun a => Fin.ext ?_)
  match a with
  | ⟨0, _⟩ => show win2_3.index t (0 : Fin 2) * 1 + 1 * (y 0).val = (y 0).val; rw [e0]; omega
  | ⟨1, _⟩ => show win2_3.index t (1 : Fin 2) * 32 + 1 * (y 1).val = (y 1).val; rw [e1]; omega

end Cert.KernelIdeal.Val

end
-- ==== Proof.Val.Arr2.lean ====
/-
  Region 2's result array, and two reshapes read at an index.

  Region 2 runs over 25 grid points; its result window holds the whole 64 × 32 result array as one block at block
  index (0, 0), and the block is written back at the last point only. So the array after the region is what the body
  left in the window's staging buffer at point 24: the one written block, read through the whole-array rectangle at
  zero offsets, is the array itself, and that rectangle covers every index.

  A reshape keeps the row-major position. A vector of n entries reshaped to a column reads at (i, 0) its entry i, and
  reshaped to a row reads at (0, q) its entry q.
-/
import proofs.«409070_j24455543783861_2_alg».proof.Proof.Gen.KernelIdeal.Launch
import proofs.«409070_j24455543783861_2_alg».proof.Proof.Gen.KernelIdeal.Points
import proofs.«409070_j24455543783861_2_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen

/-- The result window's block index is (0, 0) at every grid point. -/
theorem idx2_4 : ∀ t : Fin cfg2.N, win2_4.index t (0 : Fin 2) = 0 ∧ win2_4.index t (1 : Fin 2) = 0 :=
  (by decide +kernel : ∀ t : Fin grid2.N, _)

/-- REGION 2'S RESULT ARRAY after the 25 points is what the body left in the result's staging buffer at the last point,
    whatever the proof data: only that point writes back, and its block is the whole array. -/
theorem arrAt4_last {F : FTy → Type} [FloatOps F] {c : Dev nD}
    (dat : Pipeline.Dat τ (Elt F) Unit ℕ (UR sig nD τ) ℕ cfg2 c) (h : 24 < cfg2.N) :
    dat.arrAt 4 cfg2.N = dat.after 4 ⟨24, h⟩ := by
  have hN : cfg2.N = 25 := N_2
  obtain ⟨e0, e1⟩ := idx2_4 ⟨24, h⟩
  refine dat.arrAt_eq_of_cover 4 (dat.after 4 ⟨24, h⟩) (fun t hf => ?_) (fun i => ?_)
  · have h1 : t.val = 24 := by have := (flush2_4 t).mp hf; have := t.isLt; omega
    obtain rfl : t = ⟨24, h⟩ := Fin.ext h1
    show (cfg2.win 4).cut (grid2.coords ⟨24, h⟩) (dat.after 4 ⟨24, h⟩) = _
    have hz' : (fun a => win2_4.index ⟨24, h⟩ a * main_v92.ty.shape.size a) = fun _ => 0 :=
      funext fun a => by
        match a with
        | ⟨0, _⟩ => show win2_4.index ⟨24, h⟩ (0 : Fin 2) * 64 = 0; rw [e0]
        | ⟨1, _⟩ => show win2_4.index ⟨24, h⟩ (1 : Fin 2) * 32 = 0; rw [e1]
    exact (Memref.read_access_unit_zero (Elt F) main_v92 hz' (fun a => by rw [congrFun hz' a]; simp) (dat.after 4 ⟨24, h⟩)).symm
  · refine ⟨⟨24, h⟩, (flush2_4 _).mpr rfl, ?_⟩
    show i ∈ ((View.whole main_v92).slice (win2_4.rect ⟨24, h⟩)).set
    rw [View.set_slice_whole, Rect.mem_set_unit]
    intro a
    have h0 : (i 0 : Nat) < 64 := (i 0).isLt
    have h1 : (i 1 : Nat) < 32 := (i 1).isLt
    match a with
    | ⟨0, _⟩ =>
      show win2_4.index ⟨24, h⟩ (0 : Fin 2) * 64 ≤ (i 0 : Nat) ∧ (i 0 : Nat) < win2_4.index ⟨24, h⟩ (0 : Fin 2) * 64 + 64
      rw [e0]; omega
    | ⟨1, _⟩ =>
      show win2_4.index ⟨24, h⟩ (1 : Fin 2) * 32 ≤ (i 1 : Nat) ∧ (i 1 : Nat) < win2_4.index ⟨24, h⟩ (1 : Fin 2) * 32 + 32
      rw [e1]; omega

/-- A vector of 100000 words reshaped to a column reads at (i, 0) its entry i. -/
theorem cast_col (a : IVec S100000 32) (i : Fin 100000) :
    (shapeCast S100000x1 a shapeCasts_S100000_S100000x1) (ix2 i (0 : Fin 1)) = a (ix1 i) :=
  shapeCast_apply a shapeCasts_S100000_S100000x1 (ix2 i (0 : Fin 1)) (ix1 i)
    (by rw [Shape.rowMajor_val_two, Shape.rowMajor_val_one]; show i.val = i.val * 1 + 0; omega)

/-- A vector of 32 floats reshaped to a row reads at (0, q) its entry q. -/
theorem cast_row {F : FTy → Type} [FloatOps F] (a : FVec F S32 .f32) (q : Fin 32) :
    (shapeCast S1x32 a shapeCasts_S32_S1x32) (ix2 (0 : Fin 1) q) = a (ix1 q) :=
  shapeCast_apply a shapeCasts_S32_S1x32 (ix2 (0 : Fin 1) q) (ix1 q)
    (by rw [Shape.rowMajor_val_two, Shape.rowMajor_val_one]; show q.val = 0 * 32 + q.val; omega)

end Cert.KernelIdeal.Val

end
-- ==== Proof.Val.PoolRun.lean ====
/-
  Region 2's result array after the run is the reference's pooled summary.

  The result array after the 25 points is what the last point's payload left in the result window: the last payload of
  the two scratches. The scratches follow the recurrence of the pool's value theorem, the blocks of the two tiled input
  windows are the rows 4000 t + p of the node embeddings and of the node words (a column reshape of the word vector),
  and the weights' and the bias's windows are their whole arrays (the bias a row reshape of the bias vector).
-/
import proofs.«409070_j24455543783861_2_alg».proof.Proof.KI.Reg2
import proofs.«409070_j24455543783861_2_alg».proof.Proof.Val.Pool
import proofs.«409070_j24455543783861_2_alg».proof.Proof.Val.Arr2

noncomputable section

namespace Cert.KernelIdeal.Val

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The two scratches after point n (the initial zeros past the grid, where nothing reads them). -/
def poolS (c : Dev nD) : ℕ → Vec Ideal S64x32 .f32 × Vec Ideal S64x1 .f32 := fun n =>
  if h : n < cfg2.N then (Cert.KernelIdeal.Fr.outsAt2 V c n h).2 else (k2_pay1 (F := Ideal), k2_pay2 (F := Ideal))

theorem poolS_of_lt (c : Dev nD) (n : ℕ) (h : n < cfg2.N) : poolS V c n = (Cert.KernelIdeal.Fr.outsAt2 V c n h).2 :=
  dif_pos h

/-- REGION 2'S RESULT ARRAY after the run is the pooled summary of the node embeddings it read. -/
theorem pool_run (c : Dev nD) (x2 : IVec S100000 32) (x8 : FVec Ideal S32 .f32)
    (h90 : V c main_v90 = shapeCast S100000x1 x2 shapeCasts_S100000_S100000x1)
    (h91 : V c main_v91 = shapeCast S1x32 x8 shapeCasts_S32_S1x32) :
    (Cert.KernelIdeal.Fr.dat2 (F := Ideal) V c).arrAt 4 cfg2.N = pooled (V c main_v89) x2 (V c main_arg7) x8 := by
  have hN : cfg2.N = 25 := N_2
  have h24 : 24 < cfg2.N := by rw [hN]; omega
  rw [arrAt4_last _ h24, Cert.KernelIdeal.Fr.after2_4, Cert.KernelIdeal.Fr.outsAt2_last V c h24]
  have key := pool_value (V c main_v89) x2 (V c main_arg7) x8
    (fun t => Cert.KernelIdeal.Fr.iblk2 V c 0 t) (fun t => Cert.KernelIdeal.Fr.iblk2 V c 1 t)
    (Cert.KernelIdeal.Fr.iblk2 V c 2 ⟨24, h24⟩) (Cert.KernelIdeal.Fr.iblk2 V c 3 ⟨24, h24⟩)
    (fun t p q => blk2_0_read (V c main_v89) t p q)
    (fun t p => (blk2_1_read (V c main_v90) t p).trans (by rw [h90]; exact cast_col x2 _))
    (funext fun y => blk2_2_read (V c main_arg7) ⟨24, h24⟩ y)
    (fun q => (blk2_3_read (V c main_v91) ⟨24, h24⟩ (ix2 0 q)).trans (by rw [h91]; exact cast_row x8 q))
    (poolS V c)
    (by
      have h0 : 0 < cfg2.N := by rw [hN]; omega
      rw [poolS_of_lt V c 0 h0]
      exact Cert.KernelIdeal.Fr.outsAt2_zero V c h0)
    (fun n hn => by
      have h1 : n + 1 < cfg2.N := by rw [hN]; omega
      rw [poolS_of_lt V c (n + 1) h1, poolS_of_lt V c n (Nat.lt_of_succ_lt h1)]
      exact Cert.KernelIdeal.Fr.outsAt2_succ V c n h1)
  rw [poolS_of_lt V c 24 h24] at key
  exact key

end Cert.KernelIdeal.Val

end
-- ==== Proof.Val.Bridge.lean ====
/-
  The kernel program's two results are the reference's, over the extended reals.

  The run of the kernel program ends with every buffer at the last valuation of the chain of contents between @main's
  items. Read at the two result buffers and followed back through the chain: the first projection region leaves the
  whole product of the node features with the first weights; the first message-passing stretch is the reference's, as
  one function of that product; the second projection region leaves the product of the clamped embeddings with the
  second weights; the second stretch again the reference's; the pooling region leaves the reference's pooled summary of
  the final embeddings. Both programs start from memories that agree on the arguments.
-/
import proofs.«409070_j24455543783861_2_alg».proof.Defs
import proofs.«409070_j24455543783861_2_alg».proof.Proof.Gen.KernelIdeal
import proofs.«409070_j24455543783861_2_alg».proof.Proof.Gen.ReferenceIdeal
import proofs.«409070_j24455543783861_2_alg».proof.Proof.Gen.Pre_finite_inputs
import proofs.«409070_j24455543783861_2_alg».proof.Proof.KI.Run
import proofs.«409070_j24455543783861_2_alg».proof.Proof.Ref.Read
import proofs.«409070_j24455543783861_2_alg».proof.Proof.Val.Mm
import proofs.«409070_j24455543783861_2_alg».proof.Proof.Val.Chain
import proofs.«409070_j24455543783861_2_alg».proof.Proof.Val.PoolRun

set_option maxRecDepth 16384

noncomputable section

namespace Cert.KernelIdeal.Val

open Idealize.ShloMosaic Idealize.ShloMosaic.TcCoe Idealize.SL.Sem
open Cert.KernelIdeal Cert.KernelIdeal.Gen Cert.KernelIdeal.Fr

variable (m : (ℓ : Loc nD τ sig) → Buf (Elt Ideal) ℓ) (c : Dev nD)

/-- An argument array's launch contents on core `c`. -/
abbrev ar (b : Ref sig .tc) : Buf (Elt Ideal) ((c.tc : Thread nD τ).loc b) := m ((c.tc : Thread nD τ).loc b)

/-- Region 0 leaves the product of the node features with the first layer's weights. -/
theorem v4_eq : o2 m 2 main_v4 c = Cert.ReferenceIdeal.Read.val_main_v4 (F := Ideal) (ar m c main_arg0) (ar m c main_arg3) := by
  have h : o2 m 2 main_v4 c = (dat0 (F := Ideal) (E1 m) c).arrAt 2 cfg0.N := by
    show X2 m c main_v4 = _
    unfold X2; exact Pipeline.withArrays_arr spec0 launch0.win.arr_inj c _ _ 2
  rw [h, arr0_eq (E1 m) c, show E1 m c main_arg0 = ar m c main_arg0 from V1_arg0 m c,
    show E1 m c main_arg3 = ar m c main_arg3 from V1_arg3 m c]

/-- The first message-passing stretch, applied to that product, gives the reference's first-layer embeddings. -/
theorem v46_eq : E5 m c main_v46 = Cert.ReferenceIdeal.Read.val_main_v46 (F := Ideal) (ar m c main_arg0) (ar m c main_arg1) (ar m c main_arg3) (ar m c main_arg4) := by
  show V5 m (o2 m) c main_v46 = _
  rw [ker46 m (o2 m) c, v4_eq m c, ← ref46]

/-- Region 1 leaves the product of the clamped first-layer embeddings with the second layer's weights. -/
theorem v47_eq : outs m 6 main_v47 c = Cert.ReferenceIdeal.Read.val_main_v48 (F := Ideal) (ar m c main_arg0) (ar m c main_arg1) (ar m c main_arg3) (ar m c main_arg4) (ar m c main_arg5) := by
  rw [outs_6 m c, arr1_eq (E5 m) c, v46_eq m c, show E5 m c main_arg5 = ar m c main_arg5 from V5_arg5 m (o2 m) c]
  rfl

/-- The node embeddings the kernel program returns are the reference's. -/
theorem out1_eq : V10 m (outs m) c main_v89 = Cert.ReferenceIdeal.Read.val_main_v90 (F := Ideal) (ar m c main_arg0) (ar m c main_arg1) (ar m c main_arg3) (ar m c main_arg4) (ar m c main_arg5) (ar m c main_arg6) :=
  (V10_of m (outs m) c main_v89 (by decide)).trans ((ker89 m (outs m) c).trans (by rw [v47_eq m c, ← ref90]))

/-- The pooled summary the kernel program returns is the reference's. -/
theorem out0_eq : V10 m (outs m) c main_v92 = Cert.ReferenceIdeal.Read.val_main_v106 (F := Ideal) (ar m c main_arg0) (ar m c main_arg1) (ar m c main_arg2) (ar m c main_arg3) (ar m c main_arg4) (ar m c main_arg5) (ar m c main_arg6) (ar m c main_arg7) (ar m c main_arg8) := by
  have h1 : V10 m (outs m) c main_v92 = (dat2 (F := Ideal) (E9 m) c).arrAt 4 cfg2.N := by
    rw [← outs_10 m c]; simp only [V10, Function.update_self]
  have hh : E9 m c main_v89 = Cert.ReferenceIdeal.Read.val_main_v90 (F := Ideal) (ar m c main_arg0) (ar m c main_arg1) (ar m c main_arg3) (ar m c main_arg4) (ar m c main_arg5) (ar m c main_arg6) := by
    show V9 m (o6 m) c main_v89 = _
    rw [← V9_outs m c]
    exact (V10_of m (outs m) c main_v89 (by decide)).symm.trans (out1_eq m c)
  rw [h1, pool_run (E9 m) c (ar m c main_arg2) (ar m c main_arg8) (ker_v90 m (o6 m) c) (ker_v91 m (o6 m) c),
    show E9 m c main_arg7 = ar m c main_arg7 from V9_arg7 m (o6 m) c, hh, ← ref106]

/-- From memories agreeing on the arguments, the kernel program and the reference both run to the end and return equal
    results as extended reals, element by element, their arguments unchanged. -/
theorem algebraic : Cert.algebraic_KernelIdeal_ReferenceIdeal := by
  intro m ρ m' ρ' _ hagree
  refine ⟨fun c => V10 m (outs m) c main_v92, fun c => V10 m (outs m) c main_v89, ?_, ?_⟩
  · exact (θ_run Cert.KernelIdeal.defs _ _).mono (fun _ h c =>
      ⟨h c _ (mem_uc main_v92 (by decide)), h c _ (mem_uc main_v89 (by decide)),
       (h c _ (mem_uc main_arg0 (by decide))).trans (V10_main_arg0 m (outs m) c),
       (h c _ (mem_uc main_arg1 (by decide))).trans (V10_main_arg1 m (outs m) c),
       (h c _ (mem_uc main_arg2 (by decide))).trans (V10_main_arg2 m (outs m) c),
       (h c _ (mem_uc main_arg3 (by decide))).trans (V10_main_arg3 m (outs m) c),
       (h c _ (mem_uc main_arg4 (by decide))).trans (V10_main_arg4 m (outs m) c),
       (h c _ (mem_uc main_arg5 (by decide))).trans (V10_main_arg5 m (outs m) c),
       (h c _ (mem_uc main_arg6 (by decide))).trans (V10_main_arg6 m (outs m) c),
       (h c _ (mem_uc main_arg7 (by decide))).trans (V10_main_arg7 m (outs m) c),
       (h c _ (mem_uc main_arg8 (by decide))).trans (V10_main_arg8 m (outs m) c)⟩) (run_vals m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v106_eq, (hagree c).1, (hagree c).2.1, (hagree c).2.2.1, (hagree c).2.2.2.1,
        (hagree c).2.2.2.2.1, (hagree c).2.2.2.2.2.1, (hagree c).2.2.2.2.2.2.1, (hagree c).2.2.2.2.2.2.2.1, (hagree c).2.2.2.2.2.2.2.2]
      exact (out0_eq m c).symm
    · rw [Cert.ReferenceIdeal.Read.val_main_v90_eq, (hagree c).1, (hagree c).2.1, (hagree c).2.2.2.1,
        (hagree c).2.2.2.2.1, (hagree c).2.2.2.2.2.1, (hagree c).2.2.2.2.2.2.1]
      exact (out1_eq m c).symm

end Cert.KernelIdeal.Val

end
-- ==== Proof.lean ====
/-
  The certificate of the two-layer graph convolution with mean pooling: the kernel program (three tiled regions —
  two row-blocked linear projections and a pooling region that accumulates per-graph sums and counts over the row
  blocks — among host stretches that do the edge-indexed message passing) against the plain reference.

  Frames. Each of the kernel program's two printings runs to the end, faults nowhere and leaves its arguments as
  launched: the run of its three regions over the chain of buffer valuations between @main's items. The reference's
  frame is its run with the results dropped.

  Values, over the extended reals. A row block of a product is the product of the row block, so each projection
  region leaves the whole product; the host stretches between the regions are the same operations in both programs
  and are carried as one function; the pooling region's scratch after the last block holds, per graph, the sum of the
  member rows and their number — the one-hot product drops exactly the graph ids the reference's scatter drops — and
  its last step is the reference's division, product with the summary weights and bias.
-/
import proofs.«409070_j24455543783861_2_alg».proof.Defs
import proofs.«409070_j24455543783861_2_alg».proof.Proof.Gen.Kernel
import proofs.«409070_j24455543783861_2_alg».proof.Proof.Gen.KernelIdeal
import proofs.«409070_j24455543783861_2_alg».proof.Proof.Gen.ReferenceIdeal
import proofs.«409070_j24455543783861_2_alg».proof.Proof.Gen.Pre_finite_inputs
import proofs.«409070_j24455543783861_2_alg».proof.Proof.K.Run
import proofs.«409070_j24455543783861_2_alg».proof.Proof.KI.Run
import proofs.«409070_j24455543783861_2_alg».proof.Proof.Ref.Run
import proofs.«409070_j24455543783861_2_alg».proof.Proof.Val.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.KernelIdeal.Val.algebraic⟩

end Cert.Proof

end
